-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x50 : Shape := ⟨2, ![2000000, 50]⟩
abbrev S2000000 : Shape := ⟨1, ![2000000]⟩
abbrev S50x50 : Shape := ⟨2, ![50, 50]⟩
abbrev S_ : Shape := ⟨0, ![]⟩

class Facts : Prop where
  bcast_S_S2000000x50 : S_.BroadcastsInDim S2000000x50 (![] : Fin 0 → Fin S2000000x50.rank)
  reducesTo_S2000000x50_S_d0_1 : S2000000x50.ReducesTo [0, 1] S_
  h_S_ : 0 < S_.numel
  bcast_S_S50x50 : S_.BroadcastsInDim S50x50 (![] : Fin 0 → Fin S50x50.rank)
  reducesTo_S50x50_S_d0_1 : S50x50.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2000000x50 .f32) (main_arg1 : IVec S2000000 32) (main_arg2 : FVec F S50x50 .f32) : IVec S_ 1 :=
  let main_v0 : FVec F S2000000x50 .f32 := Host.absf main_arg0
  let main_cst : FVec F S_ .f32 := constant S_ .f32 0x7F800000#32
  let main_v1 : FVec F S2000000x50 .f32 := broadcastInDim S2000000x50 ![] bcast_S_S2000000x50 main_cst
  let main_v2 : IVec S2000000x50 1 := cmpf .olt main_v0 main_v1
  let main_c : IVec S_ 1 := constantI S_ 1 1#1
  let main_v3 : IVec S_ 1 := (fun x v => Host.reduce IntOp.andi x v reducesTo_S2000000x50_S_d0_1 h_S_) main_v2 main_c
  let main_v4 : FVec F S50x50 .f32 := Host.absf main_arg2
  let main_cst_0 : FVec F S_ .f32 := constant S_ .f32 0x7F800000#32
  let main_v5 : FVec F S50x50 .f32 := broadcastInDim S50x50 ![] bcast_S_S50x50 main_cst_0
  let main_v6 : IVec S50x50 1 := cmpf .olt main_v4 main_v5
  let main_c_1 : IVec S_ 1 := constantI S_ 1 1#1
  let main_v7 : IVec S_ 1 := (fun x v => Host.reduce IntOp.andi x v reducesTo_S50x50_S_d0_1 h_S_) main_v6 main_c_1
  let main_v8 : IVec S_ 1 := andi main_v3 main_v7
  let main_c_2 : IVec S_ 32 := constantI S_ 32 0#32
  let main_v9 : IVec S2000000 32 := broadcastInDim S2000000 ![] bcast_S_S2000000 main_c_2
  let main_v10 : IVec S2000000 1 := cmpi .sge main_arg1 main_v9
  let main_c_3 : IVec S_ 1 := constantI S_ 1 1#1
  let main_v11 : IVec S_ 1 := (fun x v => Host.reduce IntOp.andi x v reducesTo_S2000000_S_d0 h_S_) main_v10 main_c_3
  let main_v12 : IVec S_ 1 := andi main_v8 main_v11
  let main_c_4 : IVec S_ 32 := constantI S_ 32 50#32
  let main_v13 : IVec S2000000 32 := broadcastInDim S2000000 ![] bcast_S_S2000000 main_c_4
  let main_v14 : IVec S2000000 1 := cmpi .slt main_arg1 main_v13
  let main_c_5 : IVec S_ 1 := constantI S_ 1 1#1
  let main_v15 : IVec S_ 1 := (fun x v => Host.reduce IntOp.andi x v reducesTo_S2000000_S_d0 h_S_) main_v14 main_c_5
  fn_part1 (F := F) main_v12 main_v15
-- ==== Kernel.lean ====
abbrev S2000000x50 : Shape := ⟨2, ![2000000, 50]⟩
abbrev S2000000 : Shape := ⟨1, ![2000000]⟩
abbrev S50x50 : Shape := ⟨2, ![50, 50]⟩
abbrev S1 : Shape := ⟨1, ![1]⟩
abbrev S1999999 : Shape := ⟨1, ![1999999]⟩
abbrev S250x1x8000 : Shape := ⟨3, ![250, 1, 8000]⟩
abbrev S16x128 : Shape := ⟨2, ![16, 128]⟩
abbrev S8000x50 : Shape := ⟨2, ![8000, 50]⟩
abbrev S1x1x8000 : Shape := ⟨3, ![1, 1, 8000]⟩
abbrev S8x128 : Shape := ⟨2, ![8, 128]⟩
abbrev S1x1 : Shape := ⟨2, ![1, 1]⟩
abbrev S1x8000 : Shape := ⟨2, ![1, 8000]⟩
abbrev S8000x1 : Shape := ⟨2, ![8000, 1]⟩
abbrev S1x8000x50 : Shape := ⟨3, ![1, 8000, 50]⟩
abbrev S1x1x1 : Shape := ⟨3, ![1, 1, 1]⟩
abbrev S8000 : Shape := ⟨1, ![8000]⟩
abbrev S1x8000x1 : Shape := ⟨3, ![1, 8000, 1]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S2000000x50, .f32⟩
  | .hbm, ⟨1, _⟩ => ⟨S2000000, .i32⟩
  | .hbm, ⟨2, _⟩ => ⟨S50x50, .f32⟩
  | .hbm, ⟨3, _⟩ => ⟨S1, .i32⟩
  | .hbm, ⟨4, _⟩ => ⟨S1999999, .i32⟩
  | .hbm, ⟨5, _⟩ => ⟨S2000000, .i32⟩
  | .hbm, ⟨6, _⟩ => ⟨S250x1x8000, .i32⟩
  | .hbm, ⟨7, _⟩ => ⟨S250x1x8000, .i32⟩
  | .hbm, ⟨8, _⟩ => ⟨S16x128, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S_, .f32⟩
  | .local _ .vmem, ⟨0, _⟩ => ⟨S8000x50, .f32⟩
  | .local _ .vmem, ⟨1, _⟩ => ⟨S8000x50, .f32⟩
  | .local _ .vmem, ⟨2, _⟩ => ⟨S1x1x8000, .i32⟩
  | .local _ .vmem, ⟨3, _⟩ => ⟨S1x1x8000, .i32⟩
  | .local _ .vmem, ⟨4, _⟩ => ⟨S1x1x8000, .i32⟩
  | .local _ .vmem, ⟨5, _⟩ => ⟨S1x1x8000, .i32⟩
  | .local _ .vmem, ⟨6, _⟩ => ⟨S50x50, .f32⟩
  | .local _ .vmem, ⟨7, _⟩ => ⟨S8x128, .f32⟩
  | .local _ .vmem, ⟨8, _⟩ => ⟨S8x128, .f32⟩
  | .local _ .vmem, ⟨9, _⟩ => ⟨S1x1, .f32⟩
  | .local _ .vmem, ⟨10, _⟩ => ⟨S1x1, .f32⟩
  | _, _ => ⟨S2000000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v55 : BitVec 1 := Scalar.cmpi .eq arg1 c124_i32
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S50x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2000000_S1_0 : S2000000.Slices ![0] S1
  slices_S2000000_S1999999_0 : S2000000.Slices ![0] S1999999
  concatenates_S1_S1999999_S2000000_d0 : Shape.Concatenates [S1, S1999999] S2000000 0
  shapeCasts_S2000000_S250x1x8000 : S2000000.ShapeCasts S250x1x8000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x50_S8000x50_0_0 : ∀ a, (![0, 0] : Fin 2 → Nat) a + S8000x50.size a ≤ S8000x50.size a
  h_S8000x50 : 0 < S8000x50.numel
  inb_S1x1x8000_S1x1x8000_0_0_0 : ∀ a, (![0, 0, 0] : Fin 3 → Nat) a + S1x1x8000.size a ≤ S1x1x8000.size a
  h_S1x1x8000 : 0 < S1x1x8000.numel
  shapeCasts_S1x1x8000_S1x8000 : S1x1x8000.ShapeCasts S1x8000
  inb_S50x50_S50x50_0_0 : ∀ a, (![0, 0] : Fin 2 → Nat) a + S50x50.size a ≤ S50x50.size a
  h_S50x50 : 0 < S50x50.numel
  transposes_S1x8000_p1_0_S8000x1 : S1x8000.Transposes [1, 0] S8000x1
  iota_S8000x50_d1_w32 : S8000x50.Iotas .tc 32 [1]
  broadcasts_S8000x1_S8000x50 : S8000x1.Broadcasts S8000x50
  natLt_1_32 : 1 < 32
  shapeCasts_S8000x50_S1x8000x50 : S8000x50.ShapeCasts S1x8000x50
  reduces_S1x8000x50_S1 : S1x8000x50.Reduces [1, 2] S1
  shapeCasts_S1_S1x1x1 : S1.ShapeCasts S1x1x1
  inpos_S1x1x1_p0_0_0 : ∀ a, (![0, 0, 0] : Fin 3 → Nat) a < S1x1x1.size a
  reduces_S8000x50_S8000 : S8000x50.Reduces [1] S8000
  shapeCasts_S8000_S8000x1 : S8000.ShapeCasts S8000x1
  iota_S8000x1_d0_w32 : S8000x1.Iotas .tc 32 [0]
  shapeCasts_S8000x1_S1x8000x1 : S8000x1.ShapeCasts S1x8000x1
  reduces_S1x8000x1_S1 : S1x8000x1.Reduces [1, 2] S1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S8000x50_S50x50_S8000x50_1_0_0_1_n_n_wf : DotDims.WF S8000x50 S50x50 S8000x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x50.size a ≤ S2000000x50.size a
  hwx0_0 : ∀ i : grid0.Coords, EltTy.bits .f32 = 32 ∨ (Rect.block (s := S2000000x50) S8000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8000.size a ≤ S250x1x8000.size a
  hwx0_1 : ∀ i : grid0.Coords, EltTy.bits .i32 = 32 ∨ (Rect.block (s := S250x1x8000) S1x1x8000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8000.size a ≤ S250x1x8000.size a
  hwx0_2 : ∀ i : grid0.Coords, EltTy.bits .i32 = 32 ∨ (Rect.block (s := S250x1x8000) S1x1x8000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x50.size a ≤ S50x50.size a
  hwx0_3 : ∀ i : grid0.Coords, EltTy.bits .f32 = 32 ∨ (Rect.block (s := S50x50) S50x50.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S8000x50_S50x50_S8000x50_1_0_0_1_n_n : DotDims S8000x50 S50x50 S8000x50 where
  lhsContracting := [1]
  rhsContracting := [0]
  lhsNonContracting := [0]
  rhsNonContracting := [1]
  lhsBatch := []
  rhsBatch := []
  wf := dot_S8000x50_S50x50_S8000x50_1_0_0_1_n_n_wf

abbrev win0_0 : Pipeline.Window sig grid0 :=
  Pipeline.Window.ofSpec (Memref.whole main_arg0) S8000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x8000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x8000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S50x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2000000x50 : Shape := ⟨2, ![2000000, 50]⟩
abbrev S2000000 : Shape := ⟨1, ![2000000]⟩
abbrev S50x50 : Shape := ⟨2, ![50, 50]⟩
abbrev S2000000x1 : Shape := ⟨2, ![2000000, 1]⟩
abbrev S_ : Shape := ⟨0, ![]⟩
abbrev S2000000x1x1 : Shape := ⟨3, ![2000000, 1, 1]⟩
abbrev S1 : Shape := ⟨1, ![1]⟩
abbrev S1x1x1 : Shape := ⟨3, ![1, 1, 1]⟩
abbrev S1999999 : Shape := ⟨1, ![1999999]⟩
abbrev S1999999x1 : Shape := ⟨2, ![1999999, 1]⟩
abbrev S1999999x2 : Shape := ⟨2, ![1999999, 2]⟩

abbrev nBuf : Space → Nat
  | .hbm => 52
  | .vmem => 0
  | .smem => 0
  | _ => 0

abbrev bufTy : (tb : Table) → Fin (tcTables nBuf tb) → BufTy
  | .hbm, ⟨0, _⟩ => ⟨S2000000x50, .f32⟩
  | .hbm, ⟨1, _⟩ => ⟨S2000000, .i32⟩
  | .hbm, ⟨2, _⟩ => ⟨S50x50, .f32⟩
  | .hbm, ⟨3, _⟩ => ⟨S2000000x1, .i32⟩
  | .hbm, ⟨4, _⟩ => ⟨S_, .i32⟩
  | .hbm, ⟨5, _⟩ => ⟨S2000000x1, .i32⟩
  | .hbm, ⟨6, _⟩ => ⟨S2000000x1, .i1⟩
  | .hbm, ⟨7, _⟩ => ⟨S_, .i32⟩
  | .hbm, ⟨8, _⟩ => ⟨S2000000x1, .i32⟩
  | .hbm, ⟨9, _⟩ => ⟨S2000000x1, .i32⟩
  | .hbm, ⟨10, _⟩ => ⟨S2000000x1, .i32⟩
  | .hbm, ⟨11, _⟩ => ⟨S2000000x1x1, .i32⟩
  | .hbm, ⟨12, _⟩ => ⟨S1, .i32⟩
  | .hbm, ⟨13, _⟩ => ⟨S_, .i32⟩
  | .hbm, ⟨14, _⟩ => ⟨S2000000x1x1, .i32⟩
  | .hbm, ⟨15, _⟩ => ⟨S2000000x1x1, .i1⟩
  | .hbm, ⟨16, _⟩ => ⟨S1x1x1, .i32⟩
  | .hbm, ⟨17, _⟩ => ⟨S2000000x1x1, .i32⟩
  | .hbm, ⟨18, _⟩ => ⟨S2000000x1x1, .i1⟩
  | .hbm, ⟨19, _⟩ => ⟨S2000000x1x1, .i1⟩
  | .hbm, ⟨20, _⟩ => ⟨S_, .i1⟩
  | .hbm, ⟨21, _⟩ => ⟨S2000000x1, .i1⟩
  | .hbm, ⟨22, _⟩ => ⟨S2000000x1, .f32⟩
  | .hbm, ⟨23, _⟩ => ⟨S_, .f32⟩
  | .hbm, ⟨24, _⟩ => ⟨S2000000x1, .f32⟩
  | .hbm, ⟨25, _⟩ => ⟨S2000000x1, .f32⟩
  | .hbm, ⟨26, _⟩ => ⟨S_, .f32⟩
  | .hbm, ⟨27, _⟩ => ⟨S_, .f32⟩
  | .hbm, ⟨28, _⟩ => ⟨S1999999, .i32⟩
  | .hbm, ⟨29, _⟩ => ⟨S1999999, .i32⟩
  | .hbm, ⟨30, _⟩ => ⟨S_, .i32⟩
  | .hbm, ⟨31, _⟩ => ⟨S1999999, .i32⟩
  | .hbm, ⟨32, _⟩ => ⟨S1999999, .i1⟩
  | .hbm, ⟨33, _⟩ => ⟨S_, .i32⟩
  | .hbm, ⟨34, _⟩ => ⟨S1999999, .i32⟩
  | .hbm, ⟨35, _⟩ => ⟨S1999999, .i32⟩
  | .hbm, ⟨36, _⟩ => ⟨S1999999, .i32⟩
  | .hbm, ⟨37, _⟩ => ⟨S_, .i32⟩
  | .hbm, ⟨38, _⟩ => ⟨S1999999, .i32⟩
  | .hbm, ⟨39, _⟩ => ⟨S1999999, .i1⟩
  | .hbm, ⟨40, _⟩ => ⟨S_, .i32⟩
  | .hbm, ⟨41, _⟩ => ⟨S1999999, .i32⟩
  | .hbm, ⟨42, _⟩ => ⟨S1999999, .i32⟩
  | .hbm, ⟨43, _⟩ => ⟨S1999999, .i32⟩
  | .hbm, ⟨44, _⟩ => ⟨S1999999x1, .i32⟩
  | .hbm, ⟨45, _⟩ => ⟨S1999999x1, .i32⟩
  | .hbm, ⟨46, _⟩ => ⟨S1999999x2, .i32⟩
  | .hbm, ⟨47, _⟩ => ⟨S1999999, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S2000000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_c : Ref sig .tc := ⟨.hbm, 30, rfl⟩
abbrev main_v5 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  shapeCasts_S2000000x1_S2000000x1x1 : S2000000x1.ShapeCasts S2000000x1x1
  bcast_S_S2000000x1x1 : S_.BroadcastsInDim S2000000x1x1 (![] : Fin 0 → Fin S2000000x1x1.rank)
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  reducesTo_S2000000x1x1_S2000000x1_d2 : S2000000x1x1.ReducesTo [2] S2000000x1
  h_S_ : 0 < S_.numel
  reducesTo_S2000000x1_S_d0_1 : S2000000x1.ReducesTo [0, 1] S_
  slices_S2000000_S1999999_0 : S2000000.Slices ![0] S1999999
  slices_S2000000_S1999999_1 : S2000000.Slices ![1] S1999999
  bcast_S_S1999999 : S_.BroadcastsInDim S1999999 (![] : Fin 0 → Fin S1999999.rank)
  bcast_S1999999_S1999999x1_0 : S1999999.BroadcastsInDim S1999999x1 (![0] : Fin 1 → Fin S1999999x1.rank)
  concatenates_S1999999x1_S1999999x1_S1999999x2_d1 : Shape.Concatenates [S1999999x1, S1999999x1] S1999999x2 1
  reducesTo_S1999999_S_d0 : S1999999.ReducesTo [0] S_
  gather_S2000000x50_S2000000x1x1_S2000000x1_n_1_0_0_1_2_11_wf : GatherDims.WF S2000000x50 S2000000x1x1 S2000000x1 [] [1] [0] [1] [0] 2 ![1, 1]
  gather_S50x50_S1999999x2_S1999999_n_01_n_n_01_1_11_wf : GatherDims.WF S50x50 S1999999x2 S1999999 [] [0, 1] [] [0, 1] [] 1 ![1, 1]

variable [Facts₀]

def gather_S2000000x50_S2000000x1x1_S2000000x1_n_1_0_0_1_2_11 : GatherDims S2000000x50 S2000000x1x1 S2000000x1 where
  offsetDims := []
  collapsedSliceDims := [1]
  operandBatchingDims := [0]
  startIndicesBatchingDims := [0]
  startIndexMap := [1]
  indexVectorDim := 2
  sliceSizes := ![1, 1]
  wf := gather_S2000000x50_S2000000x1x1_S2000000x1_n_1_0_0_1_2_11_wf
def gather_S50x50_S1999999x2_S1999999_n_01_n_n_01_1_11 : GatherDims S50x50 S1999999x2 S1999999 where
  offsetDims := []
  collapsedSliceDims := [0, 1]
  operandBatchingDims := []
  startIndicesBatchingDims := []
  startIndexMap := [0, 1]
  indexVectorDim := 1
  sliceSizes := ![1, 1]
  wf := gather_S50x50_S1999999x2_S1999999_n_01_n_n_01_1_11_wf

class Facts : Prop extends Facts₀ where

variable [Facts]
-- ==== Proof.Spec.lean ====
/-
  The path score of a linear-chain tagger, and the two ways the programs add it up.

  A sequence of 2,000,000 positions carries a tag in 0..49 at each position. Its score is the sum of the emission
  scores lg j (tg j) over all positions j plus the sum of the transition scores tr (tg j) (tg (j+1)) over the
  1,999,999 adjacent pairs; the result is minus that score.

  One program adds the positions in 250 consecutive blocks of 8,000, keeps one running total per half of the sequence
  (blocks 0..124 and blocks 125..249; each total restarts from zero at the first block of its half), negates each
  half's total and adds the two. The transition into position j is counted at position j, so position 0 contributes
  none. The other program adds everything in one pass and negates once. Over the real numbers the two agree: this
  file states both sums and proves them equal.
-/
import Idealize.ShloMosaic.PureOps.Ideal

noncomputable section

open scoped BigOperators

namespace Cert.Crf

/-- Position 8000·b + r of the sequence: row r of block b. -/
def pos (b : Fin 250) (r : Fin 8000) : Fin 2000000 := ⟨8000 * b.val + r.val, by omega⟩

/-- The position before j. (Position 0 is given itself; its transition is never counted.) -/
def prevPos (j : Fin 2000000) : Fin 2000000 := ⟨j.val - 1, by omega⟩

variable (lg : Fin 2000000 → Fin 50 → ℝ) (tr : Fin 50 → Fin 50 → ℝ) (tg : Fin 2000000 → Fin 50)

/-- The emission scores of block b, added up. -/
def blockEmit (b : Fin 250) : ℝ := ∑ r : Fin 8000, lg (pos b r) (tg (pos b r))

/-- The transition scores INTO the positions of block b, added up; the sequence's first position has none. -/
def blockTrans (b : Fin 250) : ℝ :=
  ∑ r : Fin 8000, if 0 < (pos b r).val then tr (tg (prevPos (pos b r))) (tg (pos b r)) else 0

/-- A running total over the blocks that restarts from zero at the first block of each half (blocks 0 and 125):
    after block n it holds the sum of f over the blocks of n's half up to n, added left to right from zero. -/
def acc (f : Fin 250 → ℝ) : (n : ℕ) → n < 250 → ℝ
  | 0, h => 0 + f ⟨0, h⟩
  | n + 1, h => if (n + 1) % 125 = 0 then 0 + f ⟨n + 1, h⟩ else acc f n (by omega) + f ⟨n + 1, h⟩

/-- At the first block of a half the total restarts. -/
theorem acc_reset (f : Fin 250 → ℝ) (n : ℕ) (h : n < 250) (h0 : n % 125 = 0) : acc f n h = 0 + f ⟨n, h⟩ := by
  cases n with
  | zero => rfl
  | succ m => rw [acc, if_pos h0]

/-- At any other block the total grows by that block's sum. -/
theorem acc_step (f : Fin 250 → ℝ) (n : ℕ) (h : n < 250) (h0 : ¬ n % 125 = 0) :
    acc f n h = acc f (n - 1) (by omega) + f ⟨n, h⟩ := by
  cases n with
  | zero => exact absurd (Nat.zero_mod 125) h0
  | succ m => rw [acc, if_neg h0]; rfl

/-- A function on the 250 blocks, read at a natural number (zero past the last block). -/
private def ext (f : Fin 250 → ℝ) (n : ℕ) : ℝ := if h : n < 250 then f ⟨n, h⟩ else 0

private theorem ext_of_lt (f : Fin 250 → ℝ) (n : ℕ) (h : n < 250) : ext f n = f ⟨n, h⟩ := dif_pos h

/-- The running total after block n is the sum over the blocks of n's half up to n. -/
private theorem acc_closed (f : Fin 250 → ℝ) :
    ∀ (n : ℕ) (h : n < 250), acc f n h = ∑ k ∈ Finset.Ico (125 * (n / 125)) (n + 1), ext f k := by
  intro n
  induction n with
  | zero =>
    intro h
    rw [acc_reset f 0 h (Nat.zero_mod 125)]
    have e : 125 * (0 / 125) = 0 := by omega
    rw [e, Nat.Ico_succ_singleton, Finset.sum_singleton, ext_of_lt f 0 h, zero_add]
  | succ m ih =>
    intro h
    by_cases h0 : (m + 1) % 125 = 0
    · rw [acc_reset f (m + 1) h h0]
      have e : 125 * ((m + 1) / 125) = m + 1 := by omega
      rw [e, Nat.Ico_succ_singleton, Finset.sum_singleton, ext_of_lt f (m + 1) h, zero_add]
    · rw [acc_step f (m + 1) h h0]
      have e : 125 * ((m + 1) / 125) = 125 * (m / 125) := by omega
      have hle : 125 * (m / 125) ≤ m + 1 := by omega
      rw [e, Finset.sum_Ico_succ_top hle, ext_of_lt f (m + 1) h]
      exact congrArg (· + f ⟨m + 1, h⟩) (ih (by omega))

/-- The two halves' final totals together are the sum over all 250 blocks. -/
private theorem acc_halves (f : Fin 250 → ℝ) :
    acc f 124 (by omega) + acc f 249 (by omega) = ∑ b : Fin 250, f b := by
  rw [acc_closed f 124 (by omega), acc_closed f 249 (by omega)]
  have e1 : 125 * (124 / 125) = 0 := by omega
  have e2 : 125 * (249 / 125) = 125 := by omega
  rw [e1, e2, Finset.sum_Ico_consecutive (ext f) (by omega : 0 ≤ 124 + 1) (by omega : 124 + 1 ≤ 249 + 1),
    ← Finset.range_eq_Ico, ← Fin.sum_univ_eq_sum_range (ext f) (249 + 1)]
  exact Finset.sum_congr rfl (fun b _ => ext_of_lt f b.val b.isLt)

/-- Adding block by block, row by row, visits every position once. -/
private theorem sum_blocks (F : Fin 2000000 → ℝ) :
    ∑ b : Fin 250, ∑ r : Fin 8000, F (pos b r) = ∑ j : Fin 2000000, F j := by
  rw [← Fintype.sum_prod_type' (fun b r => F (pos b r))]
  refine Fintype.sum_equiv (finProdFinEquiv.trans (finCongr (by norm_num : 250 * 8000 = 2000000))) _ _ ?_
  intro p
  refine congrArg F (Fin.ext ?_)
  simp only [pos, Equiv.trans_apply, finCongr_apply_coe, finProdFinEquiv_apply_val]
  omega

/-- A sum over all positions is the first term plus the sum over the positions after the first. -/
private theorem sum_shift (G : Fin 2000000 → ℝ) :
    ∑ j : Fin 2000000, G j = G ⟨0, by omega⟩ + ∑ j : Fin 1999999, G ⟨j.val + 1, by omega⟩ :=
  Fin.sum_univ_succ (n := 1999999) G

/-- The transitions into every position, added up, are the transitions out of every position but the last. -/
private theorem sum_trans :
    (∑ j : Fin 2000000, if 0 < j.val then tr (tg (prevPos j)) (tg j) else 0)
      = ∑ j : Fin 1999999, tr (tg ⟨j.val, by omega⟩) (tg ⟨j.val + 1, by omega⟩) := by
  rw [sum_shift (fun j => if 0 < j.val then tr (tg (prevPos j)) (tg j) else 0)]
  rw [if_neg (lt_irrefl 0), zero_add]
  refine Finset.sum_congr rfl (fun j _ => ?_)
  rw [if_pos (Nat.succ_pos j.val)]
  rfl

/-- The blockwise result: each half's totals of emission and transition scores, negated, the two halves added. -/
def kerScore : ℝ :=
  (0 - (acc (blockEmit lg tg) 124 (by omega) + acc (blockTrans tr tg) 124 (by omega)))
    + (0 - (acc (blockEmit lg tg) 249 (by omega) + acc (blockTrans tr tg) 249 (by omega)))

/-- The one-pass result: minus the sum of all emission scores and all transition scores. -/
def refScore : ℝ :=
  -((0 + ∑ j : Fin 2000000, lg j (tg j))
    + (0 + ∑ j : Fin 1999999, tr (tg ⟨j.val, by omega⟩) (tg ⟨j.val + 1, by omega⟩)))

/-- The two ways of adding agree. -/
theorem kerScore_eq_refScore : kerScore lg tr tg = refScore lg tr tg := by
  have hE : acc (blockEmit lg tg) 124 (by omega) + acc (blockEmit lg tg) 249 (by omega)
      = ∑ j : Fin 2000000, lg j (tg j) := by
    rw [acc_halves (blockEmit lg tg)]
    exact sum_blocks (fun j => lg j (tg j))
  have hT : acc (blockTrans tr tg) 124 (by omega) + acc (blockTrans tr tg) 249 (by omega)
      = ∑ j : Fin 1999999, tr (tg ⟨j.val, by omega⟩) (tg ⟨j.val + 1, by omega⟩) := by
    rw [acc_halves (blockTrans tr tg), ← sum_trans tr tg]
    exact sum_blocks (fun j => if 0 < j.val then tr (tg (prevPos j)) (tg j) else 0)
  unfold kerScore refScore
  linear_combination (-1 : ℝ) * hE + (-1 : ℝ) * hT

end Cert.Crf

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.PreDecode.lean ====
/-
  What the precondition says of the three inputs: every logit and every transition score is a real number, and every
  tag is one of 0..49.

  The precondition is the conjunction of four tests, each an "and" over a whole array: |logits| < +∞, |transitions| <
  +∞, tags ≥ 0 and tags < 50 (both read as signed 32-bit words). A word that is at least 0 and below 50 as a signed
  number is the word of a natural number below 50.
-/
import proofs.«416418_j78537771974733_3_alg».proof.Proof.Gen.Pre_finite_inputs
import proofs.«416418_j78537771974733_3_alg».proof.Proof.LibFinite
import Idealize.ShloMosaic.Lib.ValueIdx
import Idealize.ShloMosaic.Lib.ReduceAll
import Idealize.ShloMosaic.Lib.StableHlo.Predicate

noncomputable section

namespace Cert.Crf

open Idealize.ShloMosaic Idealize.ShloMosaic.ValueIdx

/-- A 32-bit word that is at least 0 and below 50 as a signed number is the word of a natural number below 50: being
    nonnegative its top bit is clear, so its signed and unsigned readings agree, and the unsigned reading is below 50. -/
private theorem word_of_range (w : BitVec 32) (h0 : (0#32 : BitVec 32).toInt ≤ w.toInt)
    (h1 : w.toInt < (50#32 : BitVec 32).toInt) : ∃ n : Fin 50, w = BitVec.ofNat 32 n.val := by
  have e0 : (0#32 : BitVec 32).toInt = 0 := by decide
  have e50 : (50#32 : BitVec 32).toInt = 50 := by decide
  rw [e0] at h0
  rw [e50] at h1
  have hlt : w.toNat < 2 ^ 32 := w.isLt
  rw [BitVec.toInt_eq_toNat_cond] at h0 h1
  have hn : w.toNat < 50 := by
    by_cases hc : 2 * w.toNat < 2 ^ 32
    · rw [if_pos hc] at h1; omega
    · rw [if_neg hc] at h0; omega
  refine ⟨⟨w.toNat, hn⟩, ?_⟩
  apply BitVec.eq_of_toNat_eq
  rw [BitVec.toNat_ofNat]
  show w.toNat = w.toNat % 2 ^ 32
  omega

/-- Under the precondition the logits are reals lg, the transition table is reals tr, and the tags are the words of
    numbers tg below 50. -/
theorem pre_decode (x0 : FVec Ideal Cert.Pre_finite_inputs.S2000000x50 .f32) (x1 : IVec Cert.Pre_finite_inputs.S2000000 32)
    (x2 : FVec Ideal Cert.Pre_finite_inputs.S50x50 .f32)
    (h : Cert.Pre_finite_inputs.fn (F := Ideal) x0 x1 x2 = fun _ => 1#1) :
    ∃ (lg : Fin 2000000 → Fin 50 → ℝ) (tr : Fin 50 → Fin 50 → ℝ) (tg : Fin 2000000 → Fin 50),
      (∀ j t, x0 (ix2 j t) = ((lg j t : ℝ) : EReal))
      ∧ (∀ j, x1 (ix1 j) = BitVec.ofNat 32 (tg j).val)
      ∧ (∀ k t, x2 (ix2 k t) = ((tr k t : ℝ) : EReal)) := by
  -- the result at its one index is the conjunction of the four tests
  have h' := congrFun h ValueIdx.ix0
  dsimp only [Cert.Pre_finite_inputs.fn, Cert.Pre_finite_inputs.fn_part1] at h'
  obtain ⟨h123, h4⟩ := IntOp.andi_eq_one.1 h'
  obtain ⟨h12, h3⟩ := IntOp.andi_eq_one.1 h123
  obtain ⟨h1, h2⟩ := IntOp.andi_eq_one.1 h12
  haveI : Subsingleton Cert.Pre_finite_inputs.S_.Idx := FiniteTest.subsingleton_scalarIdx
  -- the two finiteness tests: every logit and every transition score is a real number
  have r0 := FiniteTest.real_of_all_abs_lt_inf_at _ _ _ x0 ix0 h1
  have r2 := FiniteTest.real_of_all_abs_lt_inf_at _ _ _ x2 ix0 h2
  -- the two range tests hold at every tag
  have g3 := Host.reduce_andi_all _ _ _ _ ix0 h3
  have g4 := Host.reduce_andi_all _ _ _ _ ix0 h4
  choose lg hlg using r0
  choose tr htr using r2
  have ht : ∀ j : Fin 2000000, ∃ n : Fin 50, x1 (ix1 j) = BitVec.ofNat 32 n.val := by
    intro j
    have a : IntOp.cmpi .sge (x1 (ix1 j)) 0#32 = 1#1 := g3 (ix1 j)
    have b : IntOp.cmpi .slt (x1 (ix1 j)) 50#32 = 1#1 := g4 (ix1 j)
    exact word_of_range _ (IntOp.cmpi_sge.1 a) (IntOp.cmpi_slt.1 b)
  choose tg htg using ht
  exact ⟨fun j t => lg (ix2 j t), fun k t => tr (ix2 k t), tg, fun j t => hlg _, htg, fun k t => htr _⟩

end Cert.Crf

end
-- ==== Proof.Payload.lean ====
/-
  What one grid point computes from the blocks it is handed, over the extended reals, when the blocks hold real
  numbers and tags below 50.

  The body builds the 0/1 indicator of "column t is this row's tag" by comparing a column counter with the tag. The
  emission part multiplies the logits block by that indicator and adds up all 8000 × 50 products: row r contributes
  its logit at its own tag. The transition part multiplies the indicator of the PREVIOUS tag into the 50 × 50 table
  (a matrix product: row r becomes row prev r of the table), multiplies by the indicator of the tag and adds along the
  columns: row r becomes table (prev r) (tag r); rows whose position in the whole sequence is 0 are replaced by zero,
  and the rest are added up. Each sum is added to a running total kept in a 1 × 1 buffer; the last step stores zero
  minus the sum of the two totals into every entry of an 8 × 128 block.
-/
import proofs.«416418_j78537771974733_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Crf.Pay

open Idealize.ShloMosaic Idealize.ShloMosaic.ValueIdx Cert.KernelIdeal Cert.KernelIdeal.Gen

/-- A finite sum of real numbers, read in the extended reals, is the sum of the readings. -/
private theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two numbers below 50 that give the same 32-bit word are equal. -/
private theorem ofNat_inj50 (t g : Fin 50) (h : BitVec.ofNat 32 t.val = BitVec.ofNat 32 g.val) : t = g := by
  have h' := congrArg BitVec.toNat h
  rw [BitVec.toNat_ofNat, BitVec.toNat_ofNat] at h'
  have ht := t.isLt
  have hg := g.isLt
  apply Fin.ext
  omega

/-- The indicator word: comparing the column counter with the tag, widened to 32 bits and read as a signed integer,
    is 1 where they agree and 0 elsewhere. -/
private theorem onehot_word (t g : Fin 50) :
    FloatOps.sitofp (F := Ideal) .f32 ((IntOp.cmpi .eq (BitVec.ofNat 32 t.val) (BitVec.ofNat 32 g.val)).setWidth 32)
      = if t = g then (1 : EReal) else 0 := by
  show ((((IntOp.cmpi .eq (BitVec.ofNat 32 t.val) (BitVec.ofNat 32 g.val)).setWidth 32).toInt : ℝ) : EReal) = _
  by_cases h : t = g
  · subst h
    rw [if_pos rfl]
    have : (IntOp.cmpi .eq (BitVec.ofNat 32 t.val) (BitVec.ofNat 32 t.val)).setWidth 32 = 1#32 := by
      simp [IntOp.cmpi]
    rw [this]
    norm_num
  · rw [if_neg h]
    have hne : ¬ BitVec.ofNat 32 t.val = BitVec.ofNat 32 g.val := fun he => h (ofNat_inj50 t g he)
    have hb : (BitVec.ofNat 32 t.val == BitVec.ofNat 32 g.val) = false := beq_eq_false_iff_ne.mpr hne
    have : (IntOp.cmpi .eq (BitVec.ofNat 32 t.val) (BitVec.ofNat 32 g.val)).setWidth 32 = 0#32 := by
      simp [IntOp.cmpi, hb]
    rw [this]
    norm_num

/-- A column [a,1] broadcast to [a,b] reads, at (p, c), the column's entry at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator block read at row r, column t: the tag's row of the [1,1,8000] block is cast to [1,8000], transposed
    to a column and broadcast along the 50 columns; the column counter is the iota along axis 1. -/
private theorem pay6_apply (x1 : Vec Ideal S1x1x8000 .i32) (g : Fin 8000 → Fin 50)
    (h1 : ∀ r, x1 (ix3 (0 : Fin 1) (0 : Fin 1) r) = BitVec.ofNat 32 (g r).val) (r : Fin 8000) (t : Fin 50) :
    k0_pay6 (F := Ideal) x1 (ix2 r t) = if t = g r then (1 : EReal) else 0 := by
  show FloatOps.sitofp (F := Ideal) .f32 ((IntOp.cmpi .eq (iota .tc S8000x50 32 [1] _ (ix2 r t))
    (broadcastTo S8000x50 (transpose S8000x1 [1, 0] (shapeCast S1x8000 x1 _) _) _ (ix2 r t))).setWidth 32) = _
  rw [iota_single_apply, broadcastTo_a1_ab_apply, transpose_ix2_apply, shapeCast_1ab_ab_apply, h1]
  exact onehot_word t (g r)

/-- A vector [a] cast to a column [a,1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The operand indices of the product [8000,50] × [50,50] at result index j and contraction index k, axis by axis:
    the left operand is read at (j 0, k), the right one at (k, j 1). -/
private theorem lhs_axis0 (j : S8000x50.Idx) (k : dot_S8000x50_S50x50_S8000x50_1_0_0_1_n_n.contr.Idx) :
    (dot_S8000x50_S50x50_S8000x50_1_0_0_1_n_n.lhsIdx j k 0).val = (j 0).val := rfl
private theorem lhs_axis1 (j : S8000x50.Idx) (k : dot_S8000x50_S50x50_S8000x50_1_0_0_1_n_n.contr.Idx) :
    (dot_S8000x50_S50x50_S8000x50_1_0_0_1_n_n.lhsIdx j k 1).val = (k ⟨0, by decide⟩).val := rfl
private theorem rhs_axis0 (j : S8000x50.Idx) (k : dot_S8000x50_S50x50_S8000x50_1_0_0_1_n_n.contr.Idx) :
    (dot_S8000x50_S50x50_S8000x50_1_0_0_1_n_n.rhsIdx j k 0).val = (k ⟨0, by decide⟩).val := rfl
private theorem rhs_axis1 (j : S8000x50.Idx) (k : dot_S8000x50_S50x50_S8000x50_1_0_0_1_n_n.contr.Idx) :
    (dot_S8000x50_S50x50_S8000x50_1_0_0_1_n_n.rhsIdx j k 1).val = (j 1).val := rfl

/-- The matrix product into a zero accumulator, read at (r, t): the sum over k of left (r, k) times right (k, t). -/
private theorem matmul_apply_ix2 (lhs : FVec Ideal S8000x50 .f32) (rhs : FVec Ideal S50x50 .f32) (r : Fin 8000) (t : Fin 50) :
    matmul dot_S8000x50_S50x50_S8000x50_1_0_0_1_n_n none lhs rhs (constant (F := Ideal) S8000x50 .f32 0x00000000#32) (ix2 r t)
      = ∑ k : Fin 50, lhs (ix2 r k) * rhs (ix2 k t) := by
  refine (Ideal.matmul_constant_zero_apply dot_S8000x50_S50x50_S8000x50_1_0_0_1_n_n none lhs rhs (ix2 r t)).trans ?_
  rw [← Equiv.sum_comp (contrEquiv1 dot_S8000x50_S50x50_S8000x50_1_0_0_1_n_n 50 rfl rfl).symm]
  refine Finset.sum_congr rfl fun k _ => ?_
  have hl : dot_S8000x50_S50x50_S8000x50_1_0_0_1_n_n.lhsIdx (ix2 r t)
      ((contrEquiv1 dot_S8000x50_S50x50_S8000x50_1_0_0_1_n_n 50 rfl rfl).symm k) = ix2 r k :=
    Shape.idx_ext₂ (lhs_axis0 _ _)
      ((lhs_axis1 _ _).trans (contrEquiv1_symm_val dot_S8000x50_S50x50_S8000x50_1_0_0_1_n_n 50 rfl rfl k))
  have hr : dot_S8000x50_S50x50_S8000x50_1_0_0_1_n_n.rhsIdx (ix2 r t)
      ((contrEquiv1 dot_S8000x50_S50x50_S8000x50_1_0_0_1_n_n 50 rfl rfl).symm k) = ix2 k t :=
    Shape.idx_ext₂ ((rhs_axis0 _ _).trans (contrEquiv1_symm_val dot_S8000x50_S50x50_S8000x50_1_0_0_1_n_n 50 rfl rfl k))
      (rhs_axis1 _ _)
  rw [hl, hr]

/-- A natural number below 2^31, as a 32-bit word, is above 0 in the signed order exactly when it is positive. -/
private theorem sgt_zero_ofNat (n : ℕ) (hn : n < 2 ^ 31) :
    IntOp.cmpi .sgt (BitVec.ofNat 32 n) 0#32 = if 0 < n then 1#1 else 0#1 := by
  have hti : (BitVec.ofNat 32 n).toInt = (n : ℤ) := by
    rw [BitVec.toInt_eq_toNat_cond, BitVec.toNat_ofNat, Nat.mod_eq_of_lt (by omega), if_pos (by omega)]
  show BitVec.ofBool ((0#32).slt (BitVec.ofNat 32 n)) = _
  rw [BitVec.slt, hti, BitVec.toInt_zero]
  by_cases hp : 0 < n
  · have hd : decide ((0 : ℤ) < (n : ℤ)) = true := decide_eq_true (by exact_mod_cast hp)
    rw [if_pos hp, hd]; rfl
  · have hd : decide ((0 : ℤ) < (n : ℤ)) = false := decide_eq_false (fun h => hp (by exact_mod_cast h))
    rw [if_neg hp, hd]; rfl

/-- The position word: with i₀ below 2, i₁ below 125 and r below 8000 the 32-bit arithmetic
    (i₀·125 + i₁)·8000 + r does not wrap, and the signed comparison with 0 is the comparison of the natural number. -/
private theorem mask_word (i0 i1 : ℕ) (h0 : i0 < 2) (h1 : i1 < 125) (r : Fin 8000) :
    IntOp.cmpi .sgt (IntOp.addi (Scalar.muli (Scalar.addi (Scalar.muli (BitVec.ofNat 32 i0) 125#32) (BitVec.ofNat 32 i1)) 8000#32)
      (BitVec.ofNat 32 r.val)) 0#32 = if 0 < 8000 * (125 * i0 + i1) + r.val then 1#1 else 0#1 := by
  have hr := r.isLt
  have hw : IntOp.addi (Scalar.muli (Scalar.addi (Scalar.muli (BitVec.ofNat 32 i0) 125#32) (BitVec.ofNat 32 i1)) 8000#32)
      (BitVec.ofNat 32 r.val) = BitVec.ofNat 32 (8000 * (125 * i0 + i1) + r.val) := by
    apply BitVec.eq_of_toNat_eq
    simp only [IntOp.addi, Scalar.muli, Scalar.addi, IntOp.muli, BitVec.toNat_add, BitVec.toNat_mul, BitVec.toNat_ofNat]
    omega
  rw [hw]
  exact sgt_zero_ofNat _ (by omega)

/-- The mask read at row r: is this row's position in the whole sequence past 0. -/
private theorem pay9_apply (i : grid0.Coords) (r : Fin 8000) (u : Fin 1) :
    k0_pay9 i (ix2 r u) = if 0 < 8000 * (125 * (i 0).val + (i 1).val) + r.val then 1#1 else 0#1 := by
  have h0 : (i 0).val < 2 := (i 0).isLt
  have h1 : (i 1).val < 125 := (i 1).isLt
  show IntOp.cmpi .sgt (IntOp.addi (Scalar.muli (Scalar.addi (Scalar.muli (BitVec.ofNat 32 (i 0).val) 125#32) (BitVec.ofNat 32 (i 1).val)) 8000#32)
      (iota .tc S8000x1 32 [0] Facts₀.iota_S8000x1_d0_w32 (ix2 r u))) 0#32 = _
  rw [iota_single_apply]
  exact mask_word _ _ h0 h1 r

/-- The row sum's source index: row r with column k put on axis 1. -/
private theorem lift_ix1 (r : Fin 8000) (k : Fin 50) :
    Facts₀.reduces_S8000x50_S8000.lift (ix1 r) k = ix2 r k :=
  funext fun a => match a with | ⟨0, _⟩ => Fin.ext rfl | ⟨1, _⟩ => Fin.ext rfl

/-- The transition column read at row r: the product with the previous tag's indicator picks row p r of the table,
    and the product with the tag's indicator summed along the columns picks its entry at column g r. -/
private theorem pay8_apply (x1 x2 : Vec Ideal S1x1x8000 .i32) (x3 : Vec Ideal S50x50 .f32)
    (w : Fin 50 → Fin 50 → ℝ) (g p : Fin 8000 → Fin 50)
    (h1 : ∀ r, x1 (ix3 (0 : Fin 1) (0 : Fin 1) r) = BitVec.ofNat 32 (g r).val)
    (h2 : ∀ r, x2 (ix3 (0 : Fin 1) (0 : Fin 1) r) = BitVec.ofNat 32 (p r).val)
    (h3 : ∀ k t, x3 (ix2 k t) = ((w k t : ℝ) : EReal)) (r : Fin 8000) (u : Fin 1) :
    k0_pay8 (F := Ideal) x1 x2 x3 (ix2 r u) = ((w (p r) (g r) : ℝ) : EReal) := by
  show shapeCast S8000x1 (multiReduction (F := Ideal) .add [1] S8000
      (mulf (matmul dot_S8000x50_S50x50_S8000x50_1_0_0_1_n_n none (k0_pay6 (F := Ideal) x2) x3
        (constant (F := Ideal) S8000x50 .f32 0x00000000#32)) (k0_pay6 (F := Ideal) x1))
      0x00000000#32 Facts₀.reduces_S8000x50_S8000 (.inl rfl) rfl) Facts₀.shapeCasts_S8000_S8000x1 (ix2 r u) = _
  rw [shapeCast_a_a1_apply]
  refine (Ideal.multiReduction_add_single _ _ _ _ _ (ix1 r)).trans ?_
  show ∑ k : Fin 50, _ = _
  rw [Finset.sum_eq_single (g r)]
  · rw [lift_ix1, mulf_apply, pay6_apply x1 g h1, if_pos rfl, mul_one, matmul_apply_ix2]
    rw [Finset.sum_eq_single (p r)]
    · rw [pay6_apply x2 p h2, if_pos rfl, one_mul, h3]
    · intro k _ hne
      rw [pay6_apply x2 p h2, if_neg hne, zero_mul]
    · intro h; exact absurd (Finset.mem_univ _) h
  · intro t _ hne
    rw [lift_ix1, mulf_apply, pay6_apply x1 g h1, if_neg hne, mul_zero]
  · intro h; exact absurd (Finset.mem_univ _) h

/-- The two zero fills a running total restarts from. -/
theorem pay4_eq : k0_pay4 (F := Ideal) = fun _ => ((0 : ℝ) : EReal) := by
  funext y
  show Ideal.ofBits .f32 0x00000000#32 = _
  rw [Ideal.ofBits_zero_f32, EReal.coe_zero]

theorem pay5_eq : k0_pay5 (F := Ideal) = fun _ => ((0 : ℝ) : EReal) := by
  funext y
  show Ideal.ofBits .f32 0x00000000#32 = _
  rw [Ideal.ofBits_zero_f32, EReal.coe_zero]

/-- A running total s with a block's sum e added. -/
theorem pay1_eq (v : Ideal .f32) (sc : Vec Ideal S1x1 .f32) (e s : ℝ)
    (hv : v = ((e : ℝ) : EReal)) (hs : ∀ y, sc y = ((s : ℝ) : EReal)) :
    k0_pay1 (F := Ideal) v sc = fun _ => ((s + e : ℝ) : EReal) := by
  funext y
  show sc _ + v = _
  rw [hs, hv, EReal.coe_add]

/-- The emission sum of a block: row r contributes its entry at its own tag g r. -/
theorem pay7_eq (x0 : Vec Ideal S8000x50 .f32) (x1 : Vec Ideal S1x1x8000 .i32)
    (a : Fin 8000 → Fin 50 → ℝ) (g : Fin 8000 → Fin 50)
    (h0 : ∀ r t, x0 (ix2 r t) = ((a r t : ℝ) : EReal))
    (h1 : ∀ r, x1 (ix3 (0 : Fin 1) (0 : Fin 1) r) = BitVec.ofNat 32 (g r).val) :
    k0_pay7 (F := Ideal) x0 x1 = ((∑ r : Fin 8000, a r (g r) : ℝ) : EReal) := by
  have ht : ∀ b, S1.size b = 1 := fun b => by fin_cases b; rfl
  show multiReduction (F := Ideal) .add [1, 2] S1 (shapeCast S1x8000x50 (mulf (k0_pay6 x1) x0) Facts₀.shapeCasts_S8000x50_S1x8000x50)
    0x00000000#32 Facts₀.reduces_S1x8000x50_S1 (.inl rfl) rfl _ = _
  refine (Ideal.multiReduction_add_total _ _ _ ht _ _ _).trans ?_
  rw [sum_idx3, Fin.sum_univ_one, coe_finset_sum]
  refine Finset.sum_congr rfl fun r _ => ?_
  rw [Finset.sum_eq_single (g r)]
  · rw [shapeCast_ab_1ab_apply, mulf_apply, pay6_apply x1 g h1, if_pos rfl, one_mul, h0]
  · intro t _ hne
    rw [shapeCast_ab_1ab_apply, mulf_apply, pay6_apply x1 g h1, if_neg hne, zero_mul]
  · intro h; exact absurd (Finset.mem_univ _) h

/-- The transition total after a block: row r contributes w (p r) (g r), the table at the previous tag and the tag,
    unless its position 8000·(125·i₀ + i₁) + r in the whole sequence is 0. -/
theorem pay2_eq (i : grid0.Coords) (x1 x2 : Vec Ideal S1x1x8000 .i32) (x3 : Vec Ideal S50x50 .f32)
    (sc : Vec Ideal S1x1 .f32) (w : Fin 50 → Fin 50 → ℝ) (g p : Fin 8000 → Fin 50) (s : ℝ)
    (h1 : ∀ r, x1 (ix3 (0 : Fin 1) (0 : Fin 1) r) = BitVec.ofNat 32 (g r).val)
    (h2 : ∀ r, x2 (ix3 (0 : Fin 1) (0 : Fin 1) r) = BitVec.ofNat 32 (p r).val)
    (h3 : ∀ k t, x3 (ix2 k t) = ((w k t : ℝ) : EReal))
    (hs : ∀ y, sc y = ((s : ℝ) : EReal)) :
    k0_pay2 (F := Ideal) (k0_pay8 (F := Ideal) x1 x2 x3) (k0_pay9 i) (k0_pay10 (F := Ideal)) sc
      = fun _ => ((s + ∑ r : Fin 8000,
          (if 0 < 8000 * (125 * (i 0).val + (i 1).val) + r.val then w (p r) (g r) else 0) : ℝ) : EReal) := by
  have ht : ∀ b, S1.size b = 1 := fun b => by fin_cases b; rfl
  funext y
  show sc _ + multiReduction (F := Ideal) .add [1, 2] S1
      (shapeCast S1x8000x1 (select (k0_pay9 i) (k0_pay8 (F := Ideal) x1 x2 x3) (k0_pay10 (F := Ideal)))
        Facts₀.shapeCasts_S8000x1_S1x8000x1)
      0x00000000#32 Facts₀.reduces_S1x8000x1_S1 (.inl rfl) rfl _ = _
  rw [hs, EReal.coe_add]
  refine congrArg (fun z => ((s : ℝ) : EReal) + z) ?_
  refine (Ideal.multiReduction_add_total _ _ _ ht _ _ _).trans ?_
  rw [sum_idx3, Fin.sum_univ_one, coe_finset_sum]
  refine Finset.sum_congr rfl fun r _ => ?_
  rw [Fin.sum_univ_one, shapeCast_ab_1ab_apply, select_apply, pay9_apply, pay8_apply x1 x2 x3 w g p h1 h2 h3]
  by_cases hp : 0 < 8000 * (125 * (i 0).val + (i 1).val) + r.val
  · rw [if_pos hp, if_pos hp, select_one]
  · rw [if_neg hp, if_neg hp, select_zero]
    show Ideal.ofBits .f32 0x00000000#32 = _
    rw [Ideal.ofBits_zero_f32, EReal.coe_zero]

/-- The stored block: zero minus the sum of the two totals, in every entry. -/
theorem pay3_eq (a b : Vec Ideal S1x1 .f32) (s u : ℝ)
    (ha : ∀ y, a y = ((s : ℝ) : EReal)) (hb : ∀ y, b y = ((u : ℝ) : EReal)) :
    k0_pay3 (F := Ideal) a b = fun _ => ((0 - (s + u) : ℝ) : EReal) := by
  funext y
  show Ideal.ofBits .f32 0x00000000#32 - (a _ + b _) = _
  rw [ha, hb, Ideal.ofBits_zero_f32, ← EReal.coe_zero, ← EReal.coe_add, ← EReal.coe_sub]

end Cert.Crf.Pay

end
-- ==== Proof.Blocks.lean ====
/-
  What each grid point is handed: block b = 125·i₀ + i₁ of the sequence.

  Point number t of the 2 × 125 grid works on block t of the 250 blocks: rows 8000·t .. 8000·t + 7999 of the logits,
  the same stretch of the tags (the tags are laid out as 250 rows of 8000), and the same stretch of the "previous tag"
  array, which is the tags shifted right by one position with the first tag repeated in front; every point gets the
  whole transition table.
-/
import proofs.«416418_j78537771974733_3_alg».proof.Proof.Gen.KernelIdeal.Frame
import proofs.«416418_j78537771974733_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.Crf.Ker

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The block a grid point works on: its number in the grid's order. -/
def blkOf (t : Fin cfg0.N) : Fin 250 := ⟨t.val, lt_of_lt_of_eq t.isLt N_0⟩

/-- The four input blocks of point t, at their literal types. -/
abbrev lblk (c : Dev nD) (t : Fin cfg0.N) : Vec Ideal S8000x50 .f32 := iblk m c 0 t
abbrev tblk (c : Dev nD) (t : Fin cfg0.N) : Vec Ideal S1x1x8000 .i32 := iblk m c 1 t
abbrev pblk (c : Dev nD) (t : Fin cfg0.N) : Vec Ideal S1x1x8000 .i32 := iblk m c 2 t
abbrev wblk (c : Dev nD) (t : Fin cfg0.N) : Vec Ideal S50x50 .f32 := iblk m c 3 t

/-- The index maps over the grid: point t's block index is t along the sequence axis of the logits, the tags and the
    previous tags, and 0 on every other axis; the table's block index is 0 on both axes. -/
private theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0 :=
  (by decide +kernel : ∀ t : Fin grid0.N, _)

/-- The reshaped tags, as the region finds them. -/
private theorem v3_eq (c : Dev nD) :
    (V m c main_v3 : S250x1x8000.Idx → BitVec 32)
      = shapeCast S250x1x8000 (m ((c : Thread nD τ).loc main_arg1)) shapeCasts_S2000000_S250x1x8000 := by
  show StableHlo.after hostOps0 (fun b => m (c, b)) (Proc.devRef .tc main_v3) = _
  after_results
  rfl

/-- The reshaped shifted tags, as the region finds them. -/
private theorem v4_eq (c : Dev nD) :
    (V m c main_v4 : S250x1x8000.Idx → BitVec 32)
      = shapeCast S250x1x8000
          (concatenate S2000000 0
            [⟨S1, extractStridedSlice S1 ![0] (m ((c : Thread nD τ).loc main_arg1)) slices_S2000000_S1_0⟩,
             ⟨S1999999, extractStridedSlice S1999999 ![0] (m ((c : Thread nD τ).loc main_arg1)) slices_S2000000_S1999999_0⟩]
            concatenates_S1_S1999999_S2000000_d0)
          shapeCasts_S2000000_S250x1x8000 := by
  show StableHlo.after hostOps0 (fun b => m (c, b)) (Proc.devRef .tc main_v4) = _
  after_results
  rfl

/-- The tags laid out as 250 rows of 8000, read at row b, column r: the tag at position 8000·b + r. -/
private theorem reshape_read {α : Type} (x : S2000000.Idx → α) (b : Fin 250) (r : Fin 8000) :
    shapeCast S250x1x8000 x shapeCasts_S2000000_S250x1x8000 (ix3 b (0 : Fin 1) r) = x (ix1 (pos b r)) := by
  refine shapeCast_apply x shapeCasts_S2000000_S250x1x8000 (ix3 b (0 : Fin 1) r) (ix1 (pos b r)) ?_
  rw [Shape.rowMajor_val_one, Shape.rowMajor_val_three]
  show 8000 * b.val + r.val = (b.val * 1 + 0) * 8000 + r.val
  omega

/-- The first tag followed by all tags but the last, read at position j: the tag one position earlier
    (position 0 reads the first tag). -/
private theorem shift_read {α : Type} (x : S2000000.Idx → α) (j : Fin 2000000) :
    concatenate S2000000 0
        [⟨S1, extractStridedSlice S1 ![0] x slices_S2000000_S1_0⟩,
         ⟨S1999999, extractStridedSlice S1999999 ![0] x slices_S2000000_S1999999_0⟩]
        concatenates_S1_S1999999_S2000000_d0 (ix1 j)
      = x (ix1 (prevPos j)) := by
  by_cases hj : j.val = 0
  · refine (concatenate_pair_apply_left (0 : Fin S2000000.rank) _ _ concatenates_S1_S1999999_S2000000_d0 (ix1 j) rfl
      (ix1 (0 : Fin 1)) (fun b => ?_)).trans ?_
    · match b with
      | ⟨0, _⟩ => show (0 : Nat) = j.val; omega
    · refine extractStridedSlice_apply ![0] x slices_S2000000_S1_0 (ix1 (0 : Fin 1)) (ix1 (prevPos j)) (fun a => ?_)
      match a with
      | ⟨0, _⟩ => show j.val - 1 = 0 + 0; omega
  · have hlt : j.val - 1 < 1999999 := by have := j.isLt; omega
    refine (concatenate_pair_apply_right (0 : Fin S2000000.rank) _ _ concatenates_S1_S1999999_S2000000_d0 (ix1 j) rfl rfl
      (ix1 (⟨j.val - 1, hlt⟩ : Fin 1999999)) (fun b hb => ?_) ?_).trans ?_
    · match b with
      | ⟨0, _⟩ => exact absurd rfl hb
    · show (j.val - 1) + 1 = j.val
      omega
    · refine extractStridedSlice_apply ![0] x slices_S2000000_S1999999_0 (ix1 (⟨j.val - 1, hlt⟩ : Fin 1999999)) (ix1 (prevPos j)) (fun a => ?_)
      match a with
      | ⟨0, _⟩ => show j.val - 1 = 0 + (j.val - 1); omega

/-- The logits block of point t is rows 8000·t .. of the logits. -/
theorem lblk_apply (c : Dev nD) (t : Fin cfg0.N) (lg : Fin 2000000 → Fin 50 → ℝ)
    (h0 : ∀ j s, m ((c : Thread nD τ).loc main_arg0) (ix2 j s) = ((lg j s : ℝ) : EReal))
    (r : Fin 8000) (s : Fin 50) :
    lblk m c t (ix2 r s) = ((lg (pos (blkOf t) r) s : ℝ) : EReal) := by
  show ((cfg0.win 0).blk t).view.read (Elt Ideal) (V m c main_arg0) (ix2 r s) = _
  rw [View.read_apply]
  have he : ((cfg0.win 0).blk t).view.emb (ix2 r s) = ix2 (pos (blkOf t) r) s := by
    obtain ⟨e0, e1, -⟩ := idx_facts t
    funext a; apply Fin.ext
    match a with
    | ⟨0, _⟩ =>
      show win0_0.index t (0 : Fin 2) * 8000 + 1 * r.val = 8000 * t.val + r.val
      omega
    | ⟨1, _⟩ =>
      show win0_0.index t (1 : Fin 2) * 50 + 1 * s.val = s.val
      omega
  rw [he, V_main_arg0]
  exact h0 _ _

/-- The tags block of point t is the tags at positions 8000·t .. . -/
theorem tblk_apply (c : Dev nD) (t : Fin cfg0.N) (tg : Fin 2000000 → Fin 50)
    (h1 : ∀ j, m ((c : Thread nD τ).loc main_arg1) (ix1 j) = BitVec.ofNat 32 (tg j).val)
    (r : Fin 8000) :
    tblk m c t (ix3 (0 : Fin 1) (0 : Fin 1) r) = BitVec.ofNat 32 (tg (pos (blkOf t) r)).val := by
  show ((cfg0.win 1).blk t).view.read (Elt Ideal) (V m c main_v3) (ix3 (0 : Fin 1) (0 : Fin 1) r) = _
  rw [View.read_apply]
  have he : ((cfg0.win 1).blk t).view.emb (ix3 (0 : Fin 1) (0 : Fin 1) r) = ix3 (blkOf t) (0 : Fin 1) r := by
    obtain ⟨-, -, e0, e1, e2, -⟩ := idx_facts t
    funext a; apply Fin.ext
    match a with
    | ⟨0, _⟩ =>
      show win0_1.index t (0 : Fin 3) * 1 + 1 * 0 = t.val
      omega
    | ⟨1, _⟩ =>
      show win0_1.index t (1 : Fin 3) * 1 + 1 * 0 = 0
      omega
    | ⟨2, _⟩ =>
      show win0_1.index t (2 : Fin 3) * 8000 + 1 * r.val = r.val
      omega
  rw [he, v3_eq]
  exact (reshape_read _ (blkOf t) r).trans (h1 _)

/-- The previous-tags block of point t is the tags one position earlier (position 0 keeps its own tag). -/
theorem pblk_apply (c : Dev nD) (t : Fin cfg0.N) (tg : Fin 2000000 → Fin 50)
    (h1 : ∀ j, m ((c : Thread nD τ).loc main_arg1) (ix1 j) = BitVec.ofNat 32 (tg j).val)
    (r : Fin 8000) :
    pblk m c t (ix3 (0 : Fin 1) (0 : Fin 1) r) = BitVec.ofNat 32 (tg (prevPos (pos (blkOf t) r))).val := by
  show ((cfg0.win 2).blk t).view.read (Elt Ideal) (V m c main_v4) (ix3 (0 : Fin 1) (0 : Fin 1) r) = _
  rw [View.read_apply]
  have he : ((cfg0.win 2).blk t).view.emb (ix3 (0 : Fin 1) (0 : Fin 1) r) = ix3 (blkOf t) (0 : Fin 1) r := by
    obtain ⟨-, -, -, -, -, e0, e1, e2, -⟩ := idx_facts t
    funext a; apply Fin.ext
    match a with
    | ⟨0, _⟩ =>
      show win0_2.index t (0 : Fin 3) * 1 + 1 * 0 = t.val
      omega
    | ⟨1, _⟩ =>
      show win0_2.index t (1 : Fin 3) * 1 + 1 * 0 = 0
      omega
    | ⟨2, _⟩ =>
      show win0_2.index t (2 : Fin 3) * 8000 + 1 * r.val = r.val
      omega
  rw [he, v4_eq]
  exact (reshape_read _ (blkOf t) r).trans ((shift_read _ _).trans (h1 _))

/-- Every point's table block is the whole transition table. -/
theorem wblk_apply (c : Dev nD) (t : Fin cfg0.N) (tr : Fin 50 → Fin 50 → ℝ)
    (h2 : ∀ k s, m ((c : Thread nD τ).loc main_arg2) (ix2 k s) = ((tr k s : ℝ) : EReal))
    (k s : Fin 50) :
    wblk m c t (ix2 k s) = ((tr k s : ℝ) : EReal) := by
  show ((cfg0.win 3).blk t).view.read (Elt Ideal) (V m c main_arg2) (ix2 k s) = _
  rw [View.read_apply]
  have he : ((cfg0.win 3).blk t).view.emb (ix2 k s) = ix2 k s := by
    obtain ⟨-, -, -, -, -, -, -, -, e0, e1⟩ := idx_facts t
    funext a; apply Fin.ext
    match a with
    | ⟨0, _⟩ =>
      show win0_3.index t (0 : Fin 2) * 50 + 1 * k.val = k.val
      omega
    | ⟨1, _⟩ =>
      show win0_3.index t (1 : Fin 2) * 50 + 1 * s.val = s.val
      omega
  rw [he, V_main_arg2]
  exact h2 _ _

/-- The grid coordinates of point t number its block: 125·i₀ + i₁ = t. -/
theorem coords_blk (t : Fin cfg0.N) :
    125 * ((grid0.coords t) 0).val + ((grid0.coords t) 1).val = t.val := by
  exact (by decide +kernel : ∀ t : Fin grid0.N, 125 * ((grid0.coords t) 0).val + ((grid0.coords t) 1).val = t.val) t

end Cert.Crf.Ker

end
-- ==== Proof.Pieces.lean ====
/-
  What each of the three kinds of grid point leaves behind, in terms of the point's arithmetic.

  A point that opens a half of the sequence first stores zero into both running totals and then adds its block's two
  sums to them; a point in the middle adds its block's sums to what the point before left; the point that closes a
  half does the same and then stores zero minus the sum of the two totals into every entry of its output block.
-/
import proofs.«416418_j78537771974733_3_alg».proof.Proof.Gen.KernelIdeal.Frame
import Idealize.ShloMosaic.Lib.Pipeline.Value

set_option maxRecDepth 16384

noncomputable section

namespace Cert.Crf.Ker

open Idealize.ShloMosaic Idealize.ShloMosaic.TcCoe Idealize.ShloMosaic.Tactic Idealize.SL.Sem
open Cert.KernelIdeal Cert.KernelIdeal.Gen

variable {F : FTy → Type} [FloatOps F]

/-- Every store of the body starts at the origin of its buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Opening point, emission total: zero, then the block's emission sum added. -/
theorem sA0 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S8000x50 .f32) (x1 : Vec F S1x1x8000 .i32) (x2 : Vec F S1x1x8000 .i32) (x3 : Vec F S50x50 .f32) :
    sout0_A_0 c i arg2 harg2 arg3 harg3 arg4 harg4 arg5 harg5 arg6 harg6 arg7 harg7 arg8 harg8 hc0 hc1 x0 x1 x2 x3 = k0_pay1 (k0_pay7 x0 x1) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2,
    View.readCov_unit_zero (S := S1x1) _ hz2]

/-- Opening point, transition total: zero, then the block's transition sum added. -/
theorem sA1 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 : Vec F S8000x50 .f32) (x1 : Vec F S1x1x8000 .i32) (x2 : Vec F S1x1x8000 .i32) (x3 : Vec F S50x50 .f32) :
    sout0_A_1 c i arg2 harg2 arg3 harg3 arg4 harg4 arg5 harg5 arg6 harg6 arg7 harg7 arg8 harg8 hc0 hc1 x0 x1 x2 x3 = k0_pay2 (k0_pay8 x1 x2 x3) (k0_pay9 i) (k0_pay10 (F := F)) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2,
    View.readCov_unit_zero (S := S1x1) _ hz2]

/-- Middle point, emission total: what the point before left, plus the block's emission sum. -/
theorem sB0 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S8000x50 .f32) (x1 : Vec F S1x1x8000 .i32) (x2 : Vec F S1x1x8000 .i32) (x3 : Vec F S50x50 .f32) (xs0 : Vec F S1x1 .f32) (xs1 : Vec F S1x1 .f32) :
    sout0_B_0 c i arg2 harg2 arg3 harg3 arg4 harg4 arg5 harg5 arg6 harg6 arg7 harg7 arg8 harg8 hc0 hc1 x0 x1 x2 x3 xs0 xs1 = k0_pay1 (k0_pay7 x0 x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2]

/-- Middle point, transition total. -/
theorem sB1 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 : Vec F S8000x50 .f32) (x1 : Vec F S1x1x8000 .i32) (x2 : Vec F S1x1x8000 .i32) (x3 : Vec F S50x50 .f32) (xs0 : Vec F S1x1 .f32) (xs1 : Vec F S1x1 .f32) :
    sout0_B_1 c i arg2 harg2 arg3 harg3 arg4 harg4 arg5 harg5 arg6 harg6 arg7 harg7 arg8 harg8 hc0 hc1 x0 x1 x2 x3 xs0 xs1 = k0_pay2 (k0_pay8 x1 x2 x3) (k0_pay9 i) (k0_pay10 (F := F)) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2]

/-- Closing point, emission total. -/
theorem sC0 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S8000x50 .f32) (x1 : Vec F S1x1x8000 .i32) (x2 : Vec F S1x1x8000 .i32) (x3 : Vec F S50x50 .f32) (xs0 : Vec F S1x1 .f32) (xs1 : Vec F S1x1 .f32) :
    sout0_C_0 c i arg2 harg2 arg3 harg3 arg4 harg4 arg5 harg5 arg6 harg6 arg7 harg7 arg8 harg8 hc0 hc1 x0 x1 x2 x3 xs0 xs1 = k0_pay1 (k0_pay7 x0 x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2]

/-- Closing point, transition total. -/
theorem sC1 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S8000x50 .f32) (x1 : Vec F S1x1x8000 .i32) (x2 : Vec F S1x1x8000 .i32) (x3 : Vec F S50x50 .f32) (xs0 : Vec F S1x1 .f32) (xs1 : Vec F S1x1 .f32) :
    sout0_C_1 c i arg2 harg2 arg3 harg3 arg4 harg4 arg5 harg5 arg6 harg6 arg7 harg7 arg8 harg8 hc0 hc1 x0 x1 x2 x3 xs0 xs1 = k0_pay2 (k0_pay8 x1 x2 x3) (k0_pay9 i) (k0_pay10 (F := F)) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg7.read_unread, harg8.read_unread, View.ld_unit_zero (S := S1x1) hz2]

/-- Closing point, output block: zero minus the sum of the two totals just updated, in every entry. -/
theorem oC4 (c : Dev nD) (i : grid0.Coords) (arg2 : Memref sig .tc .vmem S8000x50 .f32) (harg2 : arg2.IsWhole) (arg3 : Memref sig .tc .vmem S1x1x8000 .i32) (harg3 : arg3.IsWhole) (arg4 : Memref sig .tc .vmem S1x1x8000 .i32) (harg4 : arg4.IsWhole) (arg5 : Memref sig .tc .vmem S50x50 .f32) (harg5 : arg5.IsWhole) (arg6 : Memref sig .tc .vmem S8x128 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 : Vec F S8000x50 .f32) (x1 : Vec F S1x1x8000 .i32) (x2 : Vec F S1x1x8000 .i32) (x3 : Vec F S50x50 .f32) (xs0 : Vec F S1x1 .f32) (xs1 : Vec F S1x1 .f32) :
    out0_C_4 c i arg2 harg2 arg3 harg3 arg4 harg4 arg5 harg5 arg6 harg6 arg7 harg7 arg8 harg8 hc0 hc1 x0 x1 x2 x3 xs0 xs1
      = k0_pay3 (k0_pay1 (k0_pay7 x0 x1) xs0) (k0_pay2 (k0_pay8 x1 x2 x3) (k0_pay9 i) (k0_pay10 (F := F)) xs1) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, View.ld_unit_zero (S := S8000x50) hz2, View.ld_unit_zero (S := S50x50) hz2, View.ld_unit_zero (S := S1x1x8000) hz3, harg6.read_unread, harg7.read_unread, harg8.read_unread, View.ld_unit_zero (S := S8x128) hz2,
    View.ld_unit_zero (S := S1x1) hz2, View.readCov_unit_zero (S := S1x1) _ hz2]

end Cert.Crf.Ker

end
-- ==== Proof.Accum.lean ====
/-
  The running totals, point by point.

  After grid point n the first carried 1 × 1 buffer holds the sum of the emission scores of the blocks of n's half of
  the sequence up to block n, and the second the sum of their transition scores, each as a real number: by induction
  on n, a point that opens a half restarting both from zero. At a point that closes a half the output block holds,
  in every entry, zero minus the sum of the two totals.
-/
import proofs.«416418_j78537771974733_3_alg».proof.Proof.Gen.KernelIdeal.Frame
import proofs.«416418_j78537771974733_3_alg».proof.Proof.Spec
import proofs.«416418_j78537771974733_3_alg».proof.Proof.Payload
import proofs.«416418_j78537771974733_3_alg».proof.Proof.Blocks
import proofs.«416418_j78537771974733_3_alg».proof.Proof.Pieces

set_option maxRecDepth 16384

noncomputable section

namespace Cert.Crf.Ker

open Idealize.ShloMosaic Idealize.ShloMosaic.TcCoe Idealize.ShloMosaic.ValueIdx Idealize.SL.Sem
open Cert.KernelIdeal Cert.KernelIdeal.Gen Cert.Crf Cert.Crf.Pay

variable (m : (ℓ : Loc nD τ sig) → Buf (Elt Ideal) ℓ)
variable (lg : Fin 2000000 → Fin 50 → ℝ) (tr : Fin 50 → Fin 50 → ℝ) (tg : Fin 2000000 → Fin 50)

/-- The three argument arrays on core c hold the reals lg, the tags tg and the reals tr. -/
structure Holds (c : Dev nD) : Prop where
  h0 : ∀ j s, m ((c : Thread nD τ).loc main_arg0) (ix2 j s) = ((lg j s : ℝ) : EReal)
  h1 : ∀ j, m ((c : Thread nD τ).loc main_arg1) (ix1 j) = BitVec.ofNat 32 (tg j).val
  h2 : ∀ k s, m ((c : Thread nD τ).loc main_arg2) (ix2 k s) = ((tr k s : ℝ) : EReal)

variable {m lg tr tg}

/-- The emission sum of point t's block. -/
theorem emit_at {c : Dev nD} (H : Holds m lg tr tg c) (t : Fin cfg0.N) :
    k0_pay7 (F := Ideal) (lblk m c t) (tblk m c t) = ((blockEmit lg tg (blkOf t) : ℝ) : EReal) :=
  pay7_eq (lblk m c t) (tblk m c t) (fun r s => lg (pos (blkOf t) r) s) (fun r => tg (pos (blkOf t) r))
    (fun r s => lblk_apply m c t lg H.h0 r s) (fun r => tblk_apply m c t tg H.h1 r)

/-- The emission total after point t, from the total s before it. -/
theorem emit_total {c : Dev nD} (H : Holds m lg tr tg c) (t : Fin cfg0.N) (sc : Vec Ideal S1x1 .f32) (s : ℝ)
    (hs : ∀ y, sc y = ((s : ℝ) : EReal)) :
    k0_pay1 (F := Ideal) (k0_pay7 (F := Ideal) (lblk m c t) (tblk m c t)) sc
      = fun _ => ((s + blockEmit lg tg (blkOf t) : ℝ) : EReal) :=
  pay1_eq _ sc (blockEmit lg tg (blkOf t)) s (emit_at H t) hs

/-- The transition total after point t, from the total s before it. -/
theorem trans_total {c : Dev nD} (H : Holds m lg tr tg c) (t : Fin cfg0.N) (sc : Vec Ideal S1x1 .f32) (s : ℝ)
    (hs : ∀ y, sc y = ((s : ℝ) : EReal)) :
    k0_pay2 (F := Ideal) (k0_pay8 (F := Ideal) (tblk m c t) (pblk m c t) (wblk m c t)) (k0_pay9 (grid0.coords t))
        (k0_pay10 (F := Ideal)) sc
      = fun _ => ((s + blockTrans tr tg (blkOf t) : ℝ) : EReal) := by
  have e := pay2_eq (grid0.coords t) (tblk m c t) (pblk m c t) (wblk m c t) sc tr
    (fun r => tg (pos (blkOf t) r)) (fun r => tg (prevPos (pos (blkOf t) r))) s
    (fun r => tblk_apply m c t tg H.h1 r) (fun r => pblk_apply m c t tg H.h1 r)
    (fun k s' => wblk_apply m c t tr H.h2 k s') hs
  rw [e]
  have hb : 125 * ((grid0.coords t) 0).val + ((grid0.coords t) 1).val = (blkOf t).val := coords_blk t
  funext _
  congr 2
  unfold blockTrans
  refine Finset.sum_congr rfl fun r _ => ?_
  rw [hb]
  rfl

/-- A bound on the point's number, as a plain number. -/
theorem lt250 {n : ℕ} (h : n < cfg0.N) : n < 250 := lt_of_lt_of_eq h N_0

/-- THE RUNNING TOTALS after point n. -/
theorem totals {c : Dev nD} (H : Holds m lg tr tg c) : ∀ (n : ℕ) (h : n < cfg0.N),
    (∀ y, (outsAt0 m c n h).2.1 y = ((acc (blockEmit lg tg) n (lt250 h) : ℝ) : EReal))
    ∧ (∀ y, (outsAt0 m c n h).2.2 y = ((acc (blockTrans tr tg) n (lt250 h) : ℝ) : EReal))
  | n, h => by
    have hN := lt250 h
    by_cases h0 : n % 125 = 0
    · -- a point that opens a half
      have h1 : ¬ n % 125 = 124 := by omega
      have e := outsAt0_A m c ⟨n, h⟩ h0 h1
      constructor
      · intro y
        rw [show (outsAt0 m c n h) = outsAt0 m c (⟨n, h⟩ : Fin cfg0.N).val (⟨n, h⟩ : Fin cfg0.N).isLt from rfl, e]
        dsimp only
        refine (congrFun (sA0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)) y).trans ?_
        refine (congrFun (emit_total H ⟨n, h⟩ (k0_pay4 (F := Ideal)) 0 (fun y => congrFun pay4_eq y)) y).trans ?_
        rw [acc_reset _ n hN h0]
        rfl
      · intro y
        rw [show (outsAt0 m c n h) = outsAt0 m c (⟨n, h⟩ : Fin cfg0.N).val (⟨n, h⟩ : Fin cfg0.N).isLt from rfl, e]
        dsimp only
        refine (congrFun (sA1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)) y).trans ?_
        refine (congrFun (trans_total H ⟨n, h⟩ (k0_pay5 (F := Ideal)) 0 (fun y => congrFun pay5_eq y)) y).trans ?_
        rw [acc_reset _ n hN h0]
        rfl
    · have hpos : n - 1 < cfg0.N := Nat.lt_of_le_of_lt (Nat.sub_le _ _) h
      have ih := totals H (n - 1) hpos
      by_cases h1 : n % 125 = 124
      · -- a point that closes a half
        have e := outsAt0_C m c ⟨n, h⟩ h0 h1
        constructor
        · intro y
          rw [show (outsAt0 m c n h) = outsAt0 m c (⟨n, h⟩ : Fin cfg0.N).val (⟨n, h⟩ : Fin cfg0.N).isLt from rfl, e]
          dsimp only
          refine (congrFun (sC0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) hpos).2.1 (outsAt0 m c (n - 1) hpos).2.2) y).trans ?_
          refine (congrFun (emit_total H ⟨n, h⟩ _ _ ih.1) y).trans ?_
          rw [acc_step _ n hN h0]
          rfl
        · intro y
          rw [show (outsAt0 m c n h) = outsAt0 m c (⟨n, h⟩ : Fin cfg0.N).val (⟨n, h⟩ : Fin cfg0.N).isLt from rfl, e]
          dsimp only
          refine (congrFun (sC1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) hpos).2.1 (outsAt0 m c (n - 1) hpos).2.2) y).trans ?_
          refine (congrFun (trans_total H ⟨n, h⟩ _ _ ih.2) y).trans ?_
          rw [acc_step _ n hN h0]
          rfl
      · -- a point in the middle of a half
        have e := outsAt0_B m c ⟨n, h⟩ h0 h1
        constructor
        · intro y
          rw [show (outsAt0 m c n h) = outsAt0 m c (⟨n, h⟩ : Fin cfg0.N).val (⟨n, h⟩ : Fin cfg0.N).isLt from rfl, e]
          dsimp only
          refine (congrFun (sB0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) hpos).2.1 (outsAt0 m c (n - 1) hpos).2.2) y).trans ?_
          refine (congrFun (emit_total H ⟨n, h⟩ _ _ ih.1) y).trans ?_
          rw [acc_step _ n hN h0]
          rfl
        · intro y
          rw [show (outsAt0 m c n h) = outsAt0 m c (⟨n, h⟩ : Fin cfg0.N).val (⟨n, h⟩ : Fin cfg0.N).isLt from rfl, e]
          dsimp only
          refine (congrFun (sB1 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) (fun hh => h1 ((hcond0_1 ⟨n, h⟩).mp hh)) (iblk m c 0 ⟨n, h⟩) (iblk m c 1 ⟨n, h⟩) (iblk m c 2 ⟨n, h⟩) (iblk m c 3 ⟨n, h⟩) (outsAt0 m c (n - 1) hpos).2.1 (outsAt0 m c (n - 1) hpos).2.2) y).trans ?_
          refine (congrFun (trans_total H ⟨n, h⟩ _ _ ih.2) y).trans ?_
          rw [acc_step _ n hN h0]
          rfl
  termination_by n => n
  decreasing_by all_goals omega

/-- THE OUTPUT BLOCK at a point that closes a half: zero minus the sum of the half's two totals, in every entry. -/
theorem closing_block {c : Dev nD} (H : Holds m lg tr tg c) (n : ℕ) (h : n < cfg0.N) (h1 : n % 125 = 124) (y : S8x128.Idx) :
    (outsAt0 m c n h).1 y
      = ((0 - (acc (blockEmit lg tg) n (lt250 h) + acc (blockTrans tr tg) n (lt250 h)) : ℝ) : EReal) := by
  have hN := lt250 h
  have h0 : ¬ n % 125 = 0 := by omega
  have hpos : n - 1 < cfg0.N := Nat.lt_of_le_of_lt (Nat.sub_le _ _) h
  have ih := totals H (n - 1) hpos
  have e := outsAt0_C m c ⟨n, h⟩ h0 h1
  rw [show (outsAt0 m c n h) = outsAt0 m c (⟨n, h⟩ : Fin cfg0.N).val (⟨n, h⟩ : Fin cfg0.N).isLt from rfl, e]
  dsimp only
  refine (congrFun (oC4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) (fun hh => h0 ((hcond0_0 ⟨n, h⟩).mp hh)) ((hcond0_1 ⟨n, h⟩).mpr h1) (iblk m c 0 ⟨n, h⟩) (iblk m c 1 ⟨n, h⟩) (iblk m c 2 ⟨n, h⟩) (iblk m c 3 ⟨n, h⟩) (outsAt0 m c (n - 1) hpos).2.1 (outsAt0 m c (n - 1) hpos).2.2) y).trans ?_
  have ea := emit_total H ⟨n, h⟩ _ _ ih.1
  have eb := trans_total H ⟨n, h⟩ _ _ ih.2
  refine (congrFun (pay3_eq _ _ _ _ (fun y => congrFun ea y) (fun y => congrFun eb y)) y).trans ?_
  rw [acc_step _ n hN h0, acc_step _ n hN h0]
  rfl

end Cert.Crf.Ker

end
-- ==== Proof.KernelValue.lean ====
/-
  The kernel's result: the two halves' negated totals, added.

  The 16 × 128 output array is written back twice, rows 0..7 by the point that closes the first half of the sequence
  and rows 8..15 by the point that closes the second; every entry of a block is zero minus the sum of that half's
  emission and transition totals. After the region the program takes entry (0,0) and entry (8,0) and adds them.
-/
import proofs.«416418_j78537771974733_3_alg».proof.Proof.Gen.KernelIdeal.Frame
import proofs.«416418_j78537771974733_3_alg».proof.Proof.Spec
import proofs.«416418_j78537771974733_3_alg».proof.Proof.Accum
import Idealize.ShloMosaic.Lib.ValueIdx
import Idealize.ShloMosaic.Lib.Pipeline.Value
import Idealize.ShloMosaic.Lib.StableHlo.Run

set_option maxRecDepth 16384

noncomputable section

namespace Cert.Crf.Ker

open Idealize.ShloMosaic Idealize.ShloMosaic.TcCoe Idealize.ShloMosaic.ValueIdx Idealize.SL.Sem
open Cert.KernelIdeal Cert.KernelIdeal.Gen Cert.Crf

variable {m : (ℓ : Loc nD τ sig) → Buf (Elt Ideal) ℓ}
variable {lg : Fin 2000000 → Fin 50 → ℝ} {tr : Fin 50 → Fin 50 → ℝ} {tg : Fin 2000000 → Fin 50}

/-- The two host slices after the region, made scalars and added: entry (0,0) plus entry (8,0) of the output array. -/
private theorem tail_read (Vw : Valuation τ sig (Elt Ideal)) (a b : ℝ)
    (h0 : (Vw (Proc.devRef .tc main_v5) : S16x128.Idx → EReal) (ix2 (0 : Fin 16) (0 : Fin 128)) = ((a : ℝ) : EReal))
    (h8 : (Vw (Proc.devRef .tc main_v5) : S16x128.Idx → EReal) (ix2 (8 : Fin 16) (0 : Fin 128)) = ((b : ℝ) : EReal)) :
    StableHlo.after (hostOps1 (F := Ideal)) Vw (Proc.devRef .tc main_v10) = fun _ => (((a + b : ℝ)) : EReal) := by
  after_results
  funext j
  show (shapeCast S_ (extractStridedSlice S1x1 ![0, 0] (Vw (Proc.devRef .tc main_v5) : S16x128.Idx → EReal) slices_S16x128_S1x1_0_0) shapeCasts_S1x1_S_ j : EReal)
      + (shapeCast S_ (extractStridedSlice S1x1 ![8, 0] (Vw (Proc.devRef .tc main_v5) : S16x128.Idx → EReal) slices_S16x128_S1x1_8_0) shapeCasts_S1x1_S_ j : EReal)
      = _
  have hpos : (S1x1.rowMajor (ix2 (0 : Fin 1) (0 : Fin 1))).val = (S_.rowMajor j).val := by
    rw [Shape.rowMajor_val_two]
    show 0 * 1 + 0 = (Shape.rowMajorPi _ j).val
    rw [Shape.rowMajorPi_zero]
  have e0 : (shapeCast S_ (extractStridedSlice S1x1 ![0, 0] (Vw (Proc.devRef .tc main_v5) : S16x128.Idx → EReal) slices_S16x128_S1x1_0_0) shapeCasts_S1x1_S_ j : EReal)
      = ((a : ℝ) : EReal) := by
    refine (shapeCast_apply _ shapeCasts_S1x1_S_ j (ix2 (0 : Fin 1) (0 : Fin 1)) hpos).trans ?_
    refine (extractStridedSlice_apply ![0, 0] _ slices_S16x128_S1x1_0_0 (ix2 (0 : Fin 1) (0 : Fin 1))
      (ix2 (0 : Fin 16) (0 : Fin 128)) (fun d => ?_)).trans h0
    match d with
    | ⟨0, _⟩ => rfl
    | ⟨1, _⟩ => rfl
  have e8 : (shapeCast S_ (extractStridedSlice S1x1 ![8, 0] (Vw (Proc.devRef .tc main_v5) : S16x128.Idx → EReal) slices_S16x128_S1x1_8_0) shapeCasts_S1x1_S_ j : EReal)
      = ((b : ℝ) : EReal) := by
    refine (shapeCast_apply _ shapeCasts_S1x1_S_ j (ix2 (0 : Fin 1) (0 : Fin 1)) hpos).trans ?_
    refine (extractStridedSlice_apply ![8, 0] _ slices_S16x128_S1x1_8_0 (ix2 (0 : Fin 1) (0 : Fin 1))
      (ix2 (8 : Fin 16) (0 : Fin 128)) (fun d => ?_)).trans h8
    match d with
    | ⟨0, _⟩ => rfl
    | ⟨1, _⟩ => rfl
  rw [e0, e8]
  exact (EReal.coe_add a b).symm

/-- Zero minus the sum of the emission and transition totals after block n. -/
private def halfScore (lg : Fin 2000000 → Fin 50 → ℝ) (tr : Fin 50 → Fin 50 → ℝ) (tg : Fin 2000000 → Fin 50)
    (n : ℕ) (h : n < 250) : ℝ :=
  0 - (acc (blockEmit lg tg) n h + acc (blockTrans tr tg) n h)

/-- It depends on the block number only. -/
private theorem halfScore_congr {n n' : ℕ} (e : n = n') (h : n < 250) (h' : n' < 250) :
    halfScore lg tr tg n h = halfScore lg tr tg n' h' := by
  subst e; rfl

/-- What the output array ends holding: in rows 0..7 the first half's negated total (after block 124), in rows 8..15
    the second half's (after block 249). -/
private def outG (lg : Fin 2000000 → Fin 50 → ℝ) (tr : Fin 50 → Fin 50 → ℝ) (tg : Fin 2000000 → Fin 50) :
    S16x128.Idx → Elt Ideal .f32 := fun y =>
  ((halfScore lg tr tg (125 * ((y 0).val / 8) + 124) (by have := idx2_lt0 y; omega) : ℝ) : EReal)

/-- The output's index map over the grid: point t writes row-block t / 125, column-block 0. -/
private theorem out_idx : ∀ t : Fin cfg0.N,
    win0_4.index t (0 : Fin 2) = t.val / 125 ∧ win0_4.index t (1 : Fin 2) = 0 :=
  (by decide +kernel : ∀ t : Fin grid0.N, _)

/-- What a point that closes a half writes back is its block of that array. -/
private theorem flushed_eq {c : Dev nD} (H : Holds m lg tr tg c) (t : Fin cfg0.N) (hf : (cfg0.win 4).flush t = true) :
    (dats m 0 c).flushed 4 t = ((cfg0.win 4).blk t).view.read (Elt Ideal) (outG lg tr tg) := by
  have h1 : t.val % 125 = 124 := (flush0_4 t).mp hf
  have hN : t.val < 250 := lt250 t.isLt
  show (cfg0.win 4).cut (grid0.coords t) ((dats m 0 c).after 4 t) = _
  rw [after0_4]
  funext y
  show (outsAt0 m c t.val t.isLt).1 y = outG lg tr tg (((cfg0.win 4).blk t).view.emb y)
  rw [closing_block H t.val t.isLt h1 y]
  obtain ⟨e0, -⟩ := out_idx t
  have hr : ((((cfg0.win 4).blk t).view.emb y) 0).val = win0_4.index t (0 : Fin 2) * 8 + 1 * (y 0).val := rfl
  have hy : (y 0).val < 8 := (y 0).isLt
  show ((halfScore lg tr tg t.val hN : ℝ) : EReal) = ((halfScore lg tr tg _ _ : ℝ) : EReal)
  exact congrArg _ (halfScore_congr (by rw [hr, e0]; omega) _ _)

/-- An index of the output array is in point t's block iff each coordinate is in the block's range on its axis. -/
private theorem mem_blk (t : Fin cfg0.N) (i : S16x128.Idx) :
    i ∈ ((cfg0.win 4).blk t).view.set ↔
      ∀ a : Fin 2, win0_4.index t a * S8x128.size a ≤ (i a).val ∧ (i a).val < win0_4.index t a * S8x128.size a + S8x128.size a := by
  show i ∈ ((View.whole main_v5).slice (win0_4.rect t)).set ↔ _
  rw [View.set_slice_whole, Rect.mem_set_unit]
  exact Iff.rfl

/-- The buffer the program returns holds, after the host operations that follow the region, the blockwise score. -/
theorem kernel_result {c : Dev nD} (H : Holds m lg tr tg c) :
    Pipeline.afterTail₀ cfgs (dats m) 0 (V0 m) [hostOps1] c main_v10
      = fun _ => ((kerScore lg tr tg : ℝ) : EReal) := by
  have hG : ∀ t, (cfg0.win 4).flush t = true →
      (dats m 0 c).flushed 4 t = ((cfg0.win 4).blk t).view.read (Elt Ideal) (outG lg tr tg) :=
    fun t hf => flushed_eq H t hf
  have hN124 : 124 < cfg0.N := by rw [show cfg0.N = 250 from N_0]; omega
  have hN249 : 249 < cfg0.N := by rw [show cfg0.N = 250 from N_0]; omega
  -- entry (0,0) is written by the point that closes the first half
  have a0 : (dats m 0 c).arrAt 4 cfg0.N (ix2 (0 : Fin 16) (0 : Fin 128))
      = ((halfScore lg tr tg 124 (by omega) : ℝ) : EReal) := by
    refine ((dats m 0 c).arrAt_apply_of_mem 4 (outG lg tr tg) hG cfg0.N ⟨124, hN124⟩ _ hN124
      ((flush0_4 _).mpr (by show (124 : ℕ) % 125 = 124; omega)) ?_).trans rfl
    rw [mem_blk]
    have e0 : win0_4.index ⟨124, hN124⟩ (0 : Fin 2) = 124 / 125 := (out_idx ⟨124, hN124⟩).1
    have e1 : win0_4.index ⟨124, hN124⟩ (1 : Fin 2) = 0 := (out_idx ⟨124, hN124⟩).2
    intro a
    match a with
    | ⟨0, _⟩ =>
      show win0_4.index ⟨124, hN124⟩ (0 : Fin 2) * 8 ≤ 0 ∧ 0 < win0_4.index ⟨124, hN124⟩ (0 : Fin 2) * 8 + 8
      omega
    | ⟨1, _⟩ =>
      show win0_4.index ⟨124, hN124⟩ (1 : Fin 2) * 128 ≤ 0 ∧ 0 < win0_4.index ⟨124, hN124⟩ (1 : Fin 2) * 128 + 128
      omega
  -- entry (8,0) by the point that closes the second
  have a8 : (dats m 0 c).arrAt 4 cfg0.N (ix2 (8 : Fin 16) (0 : Fin 128))
      = ((halfScore lg tr tg 249 (by omega) : ℝ) : EReal) := by
    refine ((dats m 0 c).arrAt_apply_of_mem 4 (outG lg tr tg) hG cfg0.N ⟨249, hN249⟩ _ hN249
      ((flush0_4 _).mpr (by show (249 : ℕ) % 125 = 124; omega)) ?_).trans rfl
    rw [mem_blk]
    have e0 : win0_4.index ⟨249, hN249⟩ (0 : Fin 2) = 249 / 125 := (out_idx ⟨249, hN249⟩).1
    have e1 : win0_4.index ⟨249, hN249⟩ (1 : Fin 2) = 0 := (out_idx ⟨249, hN249⟩).2
    intro a
    match a with
    | ⟨0, _⟩ =>
      show win0_4.index ⟨249, hN249⟩ (0 : Fin 2) * 8 ≤ 8 ∧ 8 < win0_4.index ⟨249, hN249⟩ (0 : Fin 2) * 8 + 8
      omega
    | ⟨1, _⟩ =>
      show win0_4.index ⟨249, hN249⟩ (1 : Fin 2) * 128 ≤ 0 ∧ 0 < win0_4.index ⟨249, hN249⟩ (1 : Fin 2) * 128 + 128
      omega
  -- the output array as the later host operations find it
  have e5 : Pipeline.withArrays spec0 c (V0 m c) (fun w => (dats m 0 c).arrAt w cfg0.N) (Proc.devRef .tc main_v5)
      = (dats m 0 c).arrAt 4 cfg0.N :=
    Pipeline.withArrays_arr spec0 launch0.win.arr_inj c (V0 m c) (fun w => (dats m 0 c).arrAt w cfg0.N) 4
  show StableHlo.after hostOps1 (Pipeline.withArrays spec0 c (V0 m c) fun w => (dats m 0 c).arrAt w cfg0.N)
      (Proc.devRef .tc main_v10) = _
  refine (tail_read (Pipeline.withArrays spec0 c (V0 m c) fun w => (dats m 0 c).arrAt w cfg0.N)
    (halfScore lg tr tg 124 (by omega)) (halfScore lg tr tg 249 (by omega)) ?_ ?_).trans rfl
  · exact (congrFun e5 _).trans a0
  · exact (congrFun e5 _).trans a8

end Cert.Crf.Ker

end
-- ==== Proof.Gather.lean ====
/-
  The reference's two gathers, read at a position.

  "take along the tag axis": result row j is the logits row j at the column its start index names, the index read as
  a signed number and clamped into 0..49. "table at a pair": result position j is the table at the row and column
  its two start indices name, each read signed and clamped into 0..49.
-/
import proofs.«416418_j78537771974733_3_alg».proof.Proof.Gen.ReferenceIdeal
import Idealize.ShloMosaic.Lib.ValueIdx

noncomputable section

namespace Cert.Crf.Ref

open Idealize.ShloMosaic Idealize.ShloMosaic.ValueIdx Cert.ReferenceIdeal

/-- Row j of the gathered column is the operand's row j at its clamped start index. -/
theorem gather_rows {α : Type} {w : Nat} (x : S2000000x50.Idx → α) (idx : IVec S2000000x1x1 w) (j : Fin 2000000) :
    Host.gather gather_S2000000x50_S2000000x1x1_S2000000x1_n_1_0_0_1_2_11 x idx (ix2 j (0 : Fin 1))
      = x (ix2 j (⟨min (idx (ix3 j (0 : Fin 1) (0 : Fin 1))).toInt.toNat 49, by omega⟩ : Fin 50)) := by
  unfold Host.gather
  congr 1
  funext a
  refine Fin.ext ?_
  match a with
  | ⟨0, _⟩ =>
    -- the row axis is the batching axis: no start, no offset, and the batching coordinate is the result's row
    show GatherDims.start _ (ix2 j 0) idx 0 + GatherDims.batchCoord _ (ix2 j 0) 0 + GatherDims.offCoord _ (ix2 j 0) 0 = j.val
    have hb : (0 : Fin 2) ∈ gather_S2000000x50_S2000000x1x1_S2000000x1_n_1_0_0_1_2_11.operandBatchingDims := List.mem_singleton.mpr rfl
    have hk : (0 : Fin 2) ∉ gather_S2000000x50_S2000000x1x1_S2000000x1_n_1_0_0_1_2_11.sKept := fun hm => ((GatherDims.mem_sKept _ _).1 hm).2 hb
    rw [GatherDims.start_batching _ _ _ _ hb, GatherDims.offCoord_eq_zero _ _ _ hk, Nat.zero_add, Nat.add_zero]
    unfold GatherDims.batchCoord
    rw [dif_pos hb]
    rfl
  | ⟨1, _⟩ =>
    -- the column axis is collapsed and start-indexed: only the clamped start index remains
    show GatherDims.start _ (ix2 j 0) idx 1 + GatherDims.batchCoord _ (ix2 j 0) 1 + GatherDims.offCoord _ (ix2 j 0) 1 = _
    have hc : (1 : Fin 2) ∈ gather_S2000000x50_S2000000x1x1_S2000000x1_n_1_0_0_1_2_11.collapsedSliceDims := List.mem_singleton.mpr rfl
    have hb : (1 : Fin 2) ∉ gather_S2000000x50_S2000000x1x1_S2000000x1_n_1_0_0_1_2_11.operandBatchingDims := by
      intro hm; exact absurd (List.mem_singleton.mp hm) (by decide)
    have hk : (1 : Fin 2) ∉ gather_S2000000x50_S2000000x1x1_S2000000x1_n_1_0_0_1_2_11.sKept := fun hm => ((GatherDims.mem_sKept _ _).1 hm).1 hc
    have hm : (1 : Fin 2) ∈ gather_S2000000x50_S2000000x1x1_S2000000x1_n_1_0_0_1_2_11.startIndexMap := List.mem_singleton.mpr rfl
    rw [GatherDims.batchCoord_eq_zero _ _ _ hb, GatherDims.offCoord_eq_zero _ _ _ hk, Nat.add_zero]
    unfold GatherDims.start
    rw [dif_pos hm]
    -- the start index is read at (j, 0, 0)
    have hsi : gather_S2000000x50_S2000000x1x1_S2000000x1_n_1_0_0_1_2_11.siIdx (ix2 j (0 : Fin 1))
        ⟨List.idxOf (1 : Fin 2) gather_S2000000x50_S2000000x1x1_S2000000x1_n_1_0_0_1_2_11.startIndexMap, List.idxOf_lt_length_iff.2 hm⟩ = ix3 j (0 : Fin 1) (0 : Fin 1) := by
      funext b
      refine Fin.ext ?_
      match b with
      | ⟨0, _⟩ => rfl
      | ⟨1, _⟩ => rfl
      | ⟨2, _⟩ => rfl
    rw [hsi]
    rfl

/-- Position j of the gathered vector is the table at its two clamped start indices. -/
theorem gather_pairs {α : Type} {w : Nat} (x : S50x50.Idx → α) (idx : IVec S1999999x2 w) (j : Fin 1999999) :
    Host.gather gather_S50x50_S1999999x2_S1999999_n_01_n_n_01_1_11 x idx (ix1 j)
      = x (ix2 (⟨min (idx (ix2 j (0 : Fin 2))).toInt.toNat 49, by omega⟩ : Fin 50)
              (⟨min (idx (ix2 j (1 : Fin 2))).toInt.toNat 49, by omega⟩ : Fin 50)) := by
  unfold Host.gather
  congr 1
  funext a
  refine Fin.ext ?_
  -- no axis is a batching axis, both are collapsed and start-indexed: on each only the clamped start index remains
  have hnb : ∀ a : Fin 2, a ∉ gather_S50x50_S1999999x2_S1999999_n_01_n_n_01_1_11.operandBatchingDims := fun _ => List.not_mem_nil
  match a with
  | ⟨0, _⟩ =>
    show GatherDims.start _ (ix1 j) idx 0 + GatherDims.batchCoord _ (ix1 j) 0 + GatherDims.offCoord _ (ix1 j) 0 = _
    have hc : (0 : Fin 2) ∈ gather_S50x50_S1999999x2_S1999999_n_01_n_n_01_1_11.collapsedSliceDims := List.mem_cons_self
    have hk : (0 : Fin 2) ∉ gather_S50x50_S1999999x2_S1999999_n_01_n_n_01_1_11.sKept := fun hm => ((GatherDims.mem_sKept _ _).1 hm).1 hc
    have hm : (0 : Fin 2) ∈ gather_S50x50_S1999999x2_S1999999_n_01_n_n_01_1_11.startIndexMap := List.mem_cons_self
    rw [GatherDims.batchCoord_eq_zero _ _ _ (hnb 0), GatherDims.offCoord_eq_zero _ _ _ hk, Nat.add_zero]
    unfold GatherDims.start
    rw [dif_pos hm]
    -- the row's start index is read at (j, 0)
    have hsi : gather_S50x50_S1999999x2_S1999999_n_01_n_n_01_1_11.siIdx (ix1 j)
        ⟨List.idxOf (0 : Fin 2) gather_S50x50_S1999999x2_S1999999_n_01_n_n_01_1_11.startIndexMap, List.idxOf_lt_length_iff.2 hm⟩ = ix2 j (0 : Fin 2) := by
      funext b
      refine Fin.ext ?_
      match b with
      | ⟨0, _⟩ => rfl
      | ⟨1, _⟩ => rfl
    rw [hsi]
    rfl
  | ⟨1, _⟩ =>
    show GatherDims.start _ (ix1 j) idx 1 + GatherDims.batchCoord _ (ix1 j) 1 + GatherDims.offCoord _ (ix1 j) 1 = _
    have hc : (1 : Fin 2) ∈ gather_S50x50_S1999999x2_S1999999_n_01_n_n_01_1_11.collapsedSliceDims := List.mem_cons_of_mem _ List.mem_cons_self
    have hk : (1 : Fin 2) ∉ gather_S50x50_S1999999x2_S1999999_n_01_n_n_01_1_11.sKept := fun hm => ((GatherDims.mem_sKept _ _).1 hm).1 hc
    have hm : (1 : Fin 2) ∈ gather_S50x50_S1999999x2_S1999999_n_01_n_n_01_1_11.startIndexMap := List.mem_cons_of_mem _ List.mem_cons_self
    rw [GatherDims.batchCoord_eq_zero _ _ _ (hnb 1), GatherDims.offCoord_eq_zero _ _ _ hk, Nat.add_zero]
    unfold GatherDims.start
    rw [dif_pos hm]
    -- the column's start index is read at (j, 1)
    have hsi : gather_S50x50_S1999999x2_S1999999_n_01_n_n_01_1_11.siIdx (ix1 j)
        ⟨List.idxOf (1 : Fin 2) gather_S50x50_S1999999x2_S1999999_n_01_n_n_01_1_11.startIndexMap, List.idxOf_lt_length_iff.2 hm⟩ = ix2 j (1 : Fin 2) := by
      funext b
      refine Fin.ext ?_
      match b with
      | ⟨0, _⟩ => rfl
      | ⟨1, _⟩ => rfl
    rw [hsi]
    rfl

end Cert.Crf.Ref

end
-- ==== Proof.RefEmit.lean ====
/-
  The reference's emission sum: the logits taken along the tag axis, added up.

  With every tag in 0..49 the "negative index wraps" select keeps the tag, the take's in-range test passes at every
  row, so its select keeps the gathered entry and never the not-a-number fill, and the gather's clamp is the identity:
  row j contributes the real number lg j (tg j).
-/
import proofs.«416418_j78537771974733_3_alg».proof.Proof.RefRead
import proofs.«416418_j78537771974733_3_alg».proof.Proof.Gather
import proofs.«416418_j78537771974733_3_alg».proof.Proof.Spec
import Idealize.ShloMosaic.Lib.ValueIdx
import Idealize.ShloMosaic.Lib.ReduceAll

noncomputable section

open scoped BigOperators

namespace Cert.Crf.Ref

open Idealize.ShloMosaic Idealize.ShloMosaic.ValueIdx Cert.ReferenceIdeal Cert.ReferenceIdeal.ReadP Cert.Crf

variable (x0 : (⟨S2000000x50, .f32⟩ : BufTy).Contents (Elt Ideal)) (x1 : (⟨S2000000, .i32⟩ : BufTy).Contents (Elt Ideal))
  (x2 : (⟨S50x50, .f32⟩ : BufTy).Contents (Elt Ideal))
  (lg : Fin 2000000 → Fin 50 → ℝ) (tr : Fin 50 → Fin 50 → ℝ) (tg : Fin 2000000 → Fin 50)

/-! ### Tag words: a tag in 0..49 as a signed 32-bit word -/

/-- A tag word is not negative. -/
private theorem tag_slt (n : Fin 50) : IntOp.cmpi .slt (BitVec.ofNat 32 n.val) 0#32 = 0#1 := by
  revert n; decide
/-- A tag word is at least zero … -/
private theorem tag_sge (n : Fin 50) : IntOp.cmpi .sge (BitVec.ofNat 32 n.val) 0#32 = 1#1 := by
  revert n; decide
/-- … and at most 49. -/
private theorem tag_sle (n : Fin 50) : IntOp.cmpi .sle (BitVec.ofNat 32 n.val) 49#32 = 1#1 := by
  revert n; decide
/-- Read signed and clamped into 0..49, a tag word is the tag. -/
private theorem tag_clamp (n : Fin 50) : min (BitVec.ofNat 32 n.val).toInt.toNat 49 = n.val := by
  revert n; decide

/-- A left fold by `and` from 1 over words that are all 1 is 1. -/
private theorem foldl_andi_one {ι : Type} (f : ι → BitVec 1) (hf : ∀ i, f i = 1#1) :
    ∀ l : List ι, l.foldl (fun r n => IntOp.andi r (f n)) 1#1 = 1#1
  | [] => rfl
  | a :: l => by
    have e : IntOp.andi (1#1 : BitVec 1) 1#1 = 1#1 := by decide
    rw [List.foldl_cons, hf a, e]
    exact foldl_andi_one f hf l

/-- The sum of real numbers, read as extended reals, is the sum of the extended reals. -/
private theorem coe_sum {ι : Type} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-! ### The index stage: the tag column, wrapped and reshaped, is the tag word of its row -/

private theorem idx_v0 (a : Fin 2000000) (b : Fin 1) : idx_main_v0 (ix2 a b) = ix1 a := by
  funext d; match d with | ⟨0, _⟩ => rfl

private theorem idx_v5 (a : Fin 2000000) (b c : Fin 1) : idx_main_call0_v5 (ix3 a b c) = ix2 a (0 : Fin 1) := by
  funext d
  match d with
  | ⟨0, _⟩ =>
    refine Fin.ext ?_
    show ((a.val * 1 + b.val) * 1 + c.val) / 1 = a.val
    have hb := b.isLt; have hc := c.isLt
    omega
  | ⟨1, _⟩ => rfl

/-- The broadcast tag column reads the tag word of its row. -/
private theorem v0_at (h1 : ∀ j, x1 (ix1 j) = BitVec.ofNat 32 (tg j).val) (a : Fin 2000000) (b : Fin 1) :
    val_main_v0 (F := Ideal) x1 (ix2 a b) = BitVec.ofNat 32 (tg a).val := by
  rw [val_main_v0_apply, idx_v0, h1]

/-- The tag is not negative, so the wrap of negative indices keeps it. -/
private theorem v4_at (h1 : ∀ j, x1 (ix1 j) = BitVec.ofNat 32 (tg j).val) (a : Fin 2000000) (b : Fin 1) :
    val_main_call0_v4 (F := Ideal) x1 (ix2 a b) = BitVec.ofNat 32 (tg a).val := by
  rw [val_main_call0_v4_apply, val_main_call0_v1_apply, v0_at x1 tg h1, val_main_call0_v0_apply, val_main_call0_c_apply,
    tag_slt, select_zero]

/-- The reshaped index column reads the tag word of its row. -/
private theorem v5_at (h1 : ∀ j, x1 (ix1 j) = BitVec.ofNat 32 (tg j).val) (a : Fin 2000000) (b c : Fin 1) :
    val_main_call0_v5 (F := Ideal) x1 (ix3 a b c) = BitVec.ofNat 32 (tg a).val := by
  rw [val_main_call0_v5_apply, idx_v5, v4_at x1 tg h1]

/-! ### The in-range test passes at every row -/

private theorem v11_at (h1 : ∀ j, x1 (ix1 j) = BitVec.ofNat 32 (tg j).val) (a : Fin 2000000) (b c : Fin 1) :
    val_main_call0_v11 (F := Ideal) x1 (ix3 a b c) = 1#1 := by
  rw [val_main_call0_v11_apply, val_main_call0_v7_apply, val_main_call0_v10_apply, v5_at x1 tg h1,
    val_main_call0_v6_apply, val_main_call0_c_2_apply, val_main_call0_v9_apply, val_main_call0_v8_apply,
    val_main_call0_c_1_apply, tag_sge, tag_sle]
  decide

private theorem v12_at (h1 : ∀ j, x1 (ix1 j) = BitVec.ofNat 32 (tg j).val) (k : S2000000x1.Idx) :
    val_main_call0_v12 (F := Ideal) x1 k = 1#1 := by
  unfold val_main_call0_v12
  rw [Host.reduce_eq_foldl]
  refine foldl_andi_one _ (fun i => ?_) _
  rw [eq_ix3 i]
  exact v11_at x1 tg h1 _ _ _

/-! ### The gathered entry -/

private theorem v13_at (h1 : ∀ j, x1 (ix1 j) = BitVec.ofNat 32 (tg j).val) (a : Fin 2000000) :
    val_main_call0_v13 (F := Ideal) x0 x1 (ix2 a (0 : Fin 1)) = x0 (ix2 a (tg a)) := by
  unfold val_main_call0_v13
  refine (gather_rows x0 _ a).trans ?_
  refine congrArg (fun t => x0 (ix2 a t)) (Fin.ext ?_)
  show min (val_main_call0_v5 (F := Ideal) x1 (ix3 a (0 : Fin 1) (0 : Fin 1))).toInt.toNat 49 = (tg a).val
  rw [v5_at x1 tg h1, tag_clamp]

/-- Row j of the taken column is the real number lg j (tg j). -/
private theorem v1_at (h0 : ∀ j t, x0 (ix2 j t) = ((lg j t : ℝ) : EReal)) (h1 : ∀ j, x1 (ix1 j) = BitVec.ofNat 32 (tg j).val)
    (a : Fin 2000000) :
    val_main_v1 (F := Ideal) x0 x1 (ix2 a (0 : Fin 1)) = ((lg a (tg a) : ℝ) : EReal) := by
  rw [val_main_v1_apply, v12_at x1 tg h1, select_one, v13_at x0 x1 tg h1, h0]

/-- The sum of the emission scores: zero plus the sum over all positions. -/
theorem emit_sum (h0 : ∀ j t, x0 (ix2 j t) = ((lg j t : ℝ) : EReal)) (h1 : ∀ j, x1 (ix1 j) = BitVec.ofNat 32 (tg j).val)
    (i : S_.Idx) :
    val_main_v2 (F := Ideal) x0 x1 i = (((0 : ℝ) + ∑ j : Fin 2000000, lg j (tg j) : ℝ) : EReal) := by
  rw [val_main_v2_apply, sum_idx2]
  have hrow : ∀ a : Fin 2000000, (∑ b : Fin 1, val_main_v1 (F := Ideal) x0 x1 (ix2 a b)) = ((lg a (tg a) : ℝ) : EReal) := by
    intro a
    rw [Fin.sum_univ_one]
    exact v1_at x0 x1 lg tg h0 h1 a
  rw [Finset.sum_congr rfl (fun a _ => hrow a), ← coe_sum]
  show Ideal.ofBits .f32 0x00000000#32 + _ = _
  rw [Ideal.ofBits_zero_f32, zero_add, zero_add]

end Cert.Crf.Ref

end
-- ==== Proof.RefTrans.lean ====
/-
  The reference's transition sum: the table gathered at the adjacent tag pairs, added up.

  Position j of the 1,999,999 pairs reads the tags at j and j + 1; with every tag in 0..49 the "negative index wraps"
  selects keep them and the gather's clamps are the identity: pair j contributes the real number tr (tg j) (tg (j+1)).
-/
import proofs.«416418_j78537771974733_3_alg».proof.Proof.RefRead
import proofs.«416418_j78537771974733_3_alg».proof.Proof.Gather
import proofs.«416418_j78537771974733_3_alg».proof.Proof.Spec
import Idealize.ShloMosaic.Lib.ValueIdx
import Idealize.ShloMosaic.Lib.ReduceAll
import Idealize.ShloMosaic.Lib.ValueIdxRank1

noncomputable section

open scoped BigOperators

namespace Cert.Crf.Ref

open Idealize.ShloMosaic Idealize.ShloMosaic.ValueIdx Cert.ReferenceIdeal Cert.ReferenceIdeal.ReadP Cert.Crf

variable (x0 : (⟨S2000000x50, .f32⟩ : BufTy).Contents (Elt Ideal)) (x1 : (⟨S2000000, .i32⟩ : BufTy).Contents (Elt Ideal))
  (x2 : (⟨S50x50, .f32⟩ : BufTy).Contents (Elt Ideal))
  (lg : Fin 2000000 → Fin 50 → ℝ) (tr : Fin 50 → Fin 50 → ℝ) (tg : Fin 2000000 → Fin 50)

/-- A tag word is not negative as a signed number. -/
private theorem tag_not_neg : ∀ n : Fin 50, IntOp.cmpi .slt (BitVec.ofNat 32 n.val) 0#32 = 0#1 := by decide

/-- A tag word read signed and clamped into 0..49 is the tag. -/
private theorem tag_clamp : ∀ n : Fin 50, min (BitVec.ofNat 32 n.val).toInt.toNat 49 = n.val := by decide

/-- A finite sum of real numbers, each read as an extended real, is the real sum read as an extended real. -/
private theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Column 0 of the start indices at pair j is the tag word at position j. -/
private theorem start_col0 (h1 : ∀ j, x1 (ix1 j) = BitVec.ofNat 32 (tg j).val) (j : Fin 1999999) :
    val_main_v17 (F := Ideal) x1 (ix2 j (0 : Fin 2)) = BitVec.ofNat 32 (tg ⟨j.val, by omega⟩).val := by
  unfold val_main_v17
  rw [concatenate_pair_apply_left (t := S1999999x2) (s₁ := S1999999x1) (s₂ := S1999999x1) (1 : Fin 2) _ _ _ (ix2 j (0 : Fin 2)) rfl (ix2 j (0 : Fin 1))
    (fun b => match b with | ⟨0, _⟩ => rfl | ⟨1, _⟩ => rfl)]
  rw [val_main_v15_apply, val_main_v9_apply, val_main_v6_apply, val_main_v3_apply, val_main_v5_apply, val_main_c_apply]
  have e : idx_main_v3 (idx_main_v15 (ix2 j (0 : Fin 1))) = ix1 (⟨j.val, by omega⟩ : Fin 2000000) := by
    funext a
    match a with
    | ⟨0, _⟩ => rfl
  rw [e, h1, tag_not_neg, select_zero]

/-- Column 1 of the start indices at pair j is the tag word at position j + 1. -/
private theorem start_col1 (h1 : ∀ j, x1 (ix1 j) = BitVec.ofNat 32 (tg j).val) (j : Fin 1999999) :
    val_main_v17 (F := Ideal) x1 (ix2 j (1 : Fin 2)) = BitVec.ofNat 32 (tg ⟨j.val + 1, by omega⟩).val := by
  unfold val_main_v17
  rw [concatenate_pair_apply_right (t := S1999999x2) (s₁ := S1999999x1) (s₂ := S1999999x1) (1 : Fin 2) _ _ _ (ix2 j (1 : Fin 2)) rfl rfl (ix2 j (0 : Fin 1))
    (fun b => match b with | ⟨0, _⟩ => fun _ => rfl | ⟨1, _⟩ => fun hb => absurd rfl hb) rfl]
  rw [val_main_v16_apply, val_main_v14_apply, val_main_v11_apply, val_main_v4_apply, val_main_v10_apply, val_main_c_1_apply]
  have e : idx_main_v4 (idx_main_v16 (ix2 j (0 : Fin 1))) = ix1 (⟨j.val + 1, by omega⟩ : Fin 2000000) := by
    funext a
    match a with
    | ⟨0, _⟩ => exact Fin.ext (Nat.add_comm 1 j.val)
  rw [e, h1, tag_not_neg, select_zero]

/-- Pair j contributes the transition score from the tag at j to the tag at j + 1. -/
private theorem pair_entry (h1 : ∀ j, x1 (ix1 j) = BitVec.ofNat 32 (tg j).val)
    (h2 : ∀ k t, x2 (ix2 k t) = ((tr k t : ℝ) : EReal)) (j : Fin 1999999) :
    val_main_v18 (F := Ideal) x1 x2 (ix1 j) = ((tr (tg ⟨j.val, by omega⟩) (tg ⟨j.val + 1, by omega⟩) : ℝ) : EReal) := by
  unfold val_main_v18
  rw [gather_pairs]
  refine Eq.trans ?_ (h2 _ _)
  congr 1
  congr 1
  · refine Fin.ext ?_
    show min (val_main_v17 (F := Ideal) x1 (ix2 j (0 : Fin 2))).toInt.toNat 49 = _
    rw [start_col0 x1 tg h1 j, tag_clamp]
  · refine Fin.ext ?_
    show min (val_main_v17 (F := Ideal) x1 (ix2 j (1 : Fin 2))).toInt.toNat 49 = _
    rw [start_col1 x1 tg h1 j, tag_clamp]

/-- The sum of the transition scores: zero plus the sum over the adjacent pairs. -/
theorem trans_sum (h1 : ∀ j, x1 (ix1 j) = BitVec.ofNat 32 (tg j).val) (h2 : ∀ k t, x2 (ix2 k t) = ((tr k t : ℝ) : EReal))
    (i : S_.Idx) :
    val_main_v19 (F := Ideal) x1 x2 i
      = (((0 : ℝ) + ∑ j : Fin 1999999, tr (tg ⟨j.val, by omega⟩) (tg ⟨j.val + 1, by omega⟩) : ℝ) : EReal) := by
  rw [val_main_v19_apply, val_main_cst_3_apply]
  show Ideal.ofBits .f32 0x00000000#32 + _ = _
  rw [Ideal.ofBits_zero_f32, ← (idxEquiv1 (n := 1999999)).symm.sum_comp]
  show (0 : EReal) + ∑ k : Fin 1999999, val_main_v18 (F := Ideal) x1 x2 (ix1 k) = _
  rw [Finset.sum_congr rfl (fun k _ => pair_entry x1 x2 tr tg h1 h2 k), coe_sum, EReal.coe_add, EReal.coe_zero]

end Cert.Crf.Ref

end
-- ==== Proof.RefValue.lean ====
/-
  The reference's result at the ideal values: minus the sum of its emission sum and its transition sum, one real
  number, when the inputs are real numbers and every tag is one of 0..49.
-/
import proofs.«416418_j78537771974733_3_alg».proof.Proof.RefRead
import proofs.«416418_j78537771974733_3_alg».proof.Proof.Gather
import proofs.«416418_j78537771974733_3_alg».proof.Proof.Spec
import proofs.«416418_j78537771974733_3_alg».proof.Proof.RefEmit
import proofs.«416418_j78537771974733_3_alg».proof.Proof.RefTrans
import Idealize.ShloMosaic.Lib.ValueIdx
import Idealize.ShloMosaic.Lib.ReduceAll

noncomputable section

open scoped BigOperators

namespace Cert.Crf.Ref

open Idealize.ShloMosaic Idealize.ShloMosaic.ValueIdx Cert.ReferenceIdeal Cert.ReferenceIdeal.ReadP Cert.Crf

variable (x0 : (⟨S2000000x50, .f32⟩ : BufTy).Contents (Elt Ideal)) (x1 : (⟨S2000000, .i32⟩ : BufTy).Contents (Elt Ideal))
  (x2 : (⟨S50x50, .f32⟩ : BufTy).Contents (Elt Ideal))
  (lg : Fin 2000000 → Fin 50 → ℝ) (tr : Fin 50 → Fin 50 → ℝ) (tg : Fin 2000000 → Fin 50)

/-- The reference's result is the one-pass score. -/
theorem ref_value (h0 : ∀ j t, x0 (ix2 j t) = ((lg j t : ℝ) : EReal)) (h1 : ∀ j, x1 (ix1 j) = BitVec.ofNat 32 (tg j).val)
    (h2 : ∀ k t, x2 (ix2 k t) = ((tr k t : ℝ) : EReal)) :
    val_main_v21 (F := Ideal) x0 x1 x2 = fun _ => ((refScore lg tr tg : ℝ) : EReal) := by
  funext i
  rw [val_main_v21_apply, val_main_v20_apply, emit_sum x0 x1 lg tg h0 h1 i, trans_sum x1 x2 tr tg h1 h2 i,
    Ideal.hostNegf_def, Ideal.negf_def, Ideal.addf_def, ← EReal.coe_add, ← EReal.coe_neg]
  rfl

end Cert.Crf.Ref

end
-- ==== Proof.lean ====
/-
  A linear-chain tagger's negative path score, computed two ways, is one number.

  The score of a tag sequence is the sum of the emission scores logits[i, tags[i]] over all 2,000,000 positions plus
  the sum of the transition scores transitions[tags[i-1], tags[i]] over the positions after the first; the result is
  minus that score. The reference gathers the two families of entries and adds each family up in one pass. The kernel
  never gathers: at each block of 8,000 positions it compares a column counter with the tags to get 0/1 indicators,
  multiplies the logits by the indicator of the tag, and multiplies the indicator of the previous tag through the
  50 × 50 table and then by the indicator of the tag, adding everything up; it keeps one running total per half of the
  sequence, negates each half's total and adds the two.

  The two agree when every tag is one of 0..49 and the scores are real numbers: an indicator row then has exactly one
  1, so each indicator sum picks out the gathered entry, and sums of real numbers may be regrouped and negated freely.
  (Outside 0..49 the reference's indexing is out of range and the programs differ, so the tags' range is part of the
  precondition; on the extended reals regrouping would fail at infinities, so finiteness is used.)

  The mathematics is in Spec (the two ways of adding agree), the reading of the precondition in PreDecode, one grid
  point's arithmetic in Payload and its input blocks in Blocks, the running totals over the grid in Pieces and Accum,
  the kernel's result in KernelValue, and the reference's in Gather and RefValue. Here the claims are assembled.
-/
import proofs.«416418_j78537771974733_3_alg».proof.Defs
import proofs.«416418_j78537771974733_3_alg».proof.Proof.Gen.Kernel
import proofs.«416418_j78537771974733_3_alg».proof.Proof.Gen.Kernel.Skeleton
import proofs.«416418_j78537771974733_3_alg».proof.Proof.Gen.Kernel.Launch
import proofs.«416418_j78537771974733_3_alg».proof.Proof.Gen.Kernel.Points
import proofs.«416418_j78537771974733_3_alg».proof.Proof.Gen.Kernel.Frame
import proofs.«416418_j78537771974733_3_alg».proof.Proof.Gen.KernelIdeal
import proofs.«416418_j78537771974733_3_alg».proof.Proof.Gen.KernelIdeal.Skeleton
import proofs.«416418_j78537771974733_3_alg».proof.Proof.Gen.KernelIdeal.Launch
import proofs.«416418_j78537771974733_3_alg».proof.Proof.Gen.KernelIdeal.Points
import proofs.«416418_j78537771974733_3_alg».proof.Proof.Gen.KernelIdeal.Frame
import proofs.«416418_j78537771974733_3_alg».proof.Proof.Gen.ReferenceIdeal
import proofs.«416418_j78537771974733_3_alg».proof.Proof.Gen.Pre_finite_inputs
import proofs.«416418_j78537771974733_3_alg».proof.Proof.Spec
import proofs.«416418_j78537771974733_3_alg».proof.Proof.PreDecode
import proofs.«416418_j78537771974733_3_alg».proof.Proof.KernelValue
import proofs.«416418_j78537771974733_3_alg».proof.Proof.RefValue
import Idealize.ShloMosaic.Adequacy
import Idealize.ShloMosaic.Init

noncomputable section

namespace Cert.Proof

open Idealize.ShloMosaic Idealize.ShloMosaic.TcCoe Idealize.SL.Sem

/-! ## The kernel's run with its result named -/

section KernelRun

open Cert.KernelIdeal Cert.KernelIdeal.Gen Cert.Crf Cert.Crf.Ker

/-- Every run of the idealized kernel ends with the returned buffer at the blockwise score of the device's inputs and
    the three arguments unchanged. -/
theorem kernel_run (m : (ℓ : Loc nD τ sig) → Buf (Elt Ideal) ℓ) (ρ : Dev nD → PrngReg)
    (lg : Dev nD → Fin 2000000 → Fin 50 → ℝ) (tr : Dev nD → Fin 50 → Fin 50 → ℝ) (tg : Dev nD → Fin 2000000 → Fin 50)
    (H : ∀ c, Holds m (lg c) (tr c) (tg c) c) :
    θ_run (defs (F := Ideal)) (onTc (τ := τ) (main (F := Ideal))) ⟨m, fun _ => 0, ρ⟩ (fun r => ∀ c : Dev nD,
      r.2.mem ((c.tc : Thread nD τ).loc main_v10) = (fun _ => ((kerScore (lg c) (tr c) (tg c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v10 (Pipeline.mem_restRefs_of main_v10 (by decide) (by decide))).trans (kernel_result (H c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).1 3).trans (((dats m 0 c).arrAt_in 3 rfl _).trans ((A_eq m c 3).trans (V_main_arg2 m c)))⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten: nothing to preserve. -/
theorem preserves : Cert.preserves_Kernel_KernelIdeal := trivial

/-- Both programs end at the blockwise score of the inputs: the kernel by its running totals, the reference because its
    one-pass score is the same real number. -/
theorem algebraic : Cert.algebraic_KernelIdeal_ReferenceIdeal := by
  intro m ρ m' ρ' hpre hagree
  have hdec : ∀ c : Dev Cert.KernelIdeal.nD, ∃ (lg : Fin 2000000 → Fin 50 → ℝ) (tr : Fin 50 → Fin 50 → ℝ)
      (tg : Fin 2000000 → Fin 50), Cert.Crf.Ker.Holds m lg tr tg c := fun c => by
    obtain ⟨lg, tr, tg, h0, h1, h2⟩ := Cert.Crf.pre_decode _ _ _ (hpre c)
    exact ⟨lg, tr, tg, ⟨h0, h1, h2⟩⟩
  choose lg tr tg H using hdec
  refine ⟨fun c => fun _ => ((Cert.Crf.kerScore (lg c) (tr c) (tg c) : ℝ) : EReal), kernel_run m ρ lg tr tg H, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v21_eq,
    Cert.Crf.Ref.ref_value _ _ _ (lg c) (tr c) (tg c)
      (fun j t => by rw [(hagree c).1]; exact (H c).h0 j t)
      (fun j => by rw [(hagree c).2.1]; exact (H c).h1 j)
      (fun k t => by rw [(hagree c).2.2]; exact (H c).h2 k t),
    ← Cert.Crf.kerScore_eq_refScore]
  rfl

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
